-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S200000x256 .f32) (main_arg1 : IVec S200000 32) (main_arg2 : FVec F S256x128 .f32) (main_arg3 : FVec F S128 .f32) (main_arg4 : FVec F S128x1 .f32) (main_arg5 : FVec F S1 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S2x100000x256 : Shape := ⟨3, ![2, 100000, 256]⟩
abbrev S2x20x1x5000 : Shape := ⟨4, ![2, 20, 1, 5000]⟩
abbrev S2x256x256 : Shape := ⟨3, ![2, 256, 256]⟩
abbrev S2x1x1 : Shape := ⟨3, ![2, 1, 1]⟩
abbrev S1x5000x256 : Shape := ⟨3, ![1, 5000, 256]⟩
abbrev S1x1x1x5000 : Shape := ⟨4, ![1, 1, 1, 5000]⟩
abbrev S1x256x256 : Shape := ⟨3, ![1, 256, 256]⟩
abbrev S1x1x1 : Shape := ⟨3, ![1, 1, 1]⟩
abbrev S256x256 : Shape := ⟨2, ![256, 256]⟩
abbrev S5000x256 : Shape := ⟨2, ![5000, 256]⟩
abbrev S5000x128 : Shape := ⟨2, ![5000, 128]⟩
abbrev S5000x1 : Shape := ⟨2, ![5000, 1]⟩
abbrev S1x5000 : Shape := ⟨2, ![1, 5000]⟩
abbrev S256x5000 : Shape := ⟨2, ![256, 5000]⟩

abbrev nBuf : Space → Nat
  | .hbm => 40
  | .vmem => 17
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x128, .f32⟩
  | .hbm, ⟨7, _⟩ => ⟨S1x1, .f32⟩
  | .hbm, ⟨8, _⟩ => ⟨S2x100000x256, .f32⟩
  | .hbm, ⟨9, _⟩ => ⟨S2x20x1x5000, .i32⟩
  | .hbm, ⟨10, _⟩ => ⟨S2x256x256, .f32⟩
  | .hbm, ⟨11, _⟩ => ⟨S2x1x1, .f32⟩
  | .hbm, ⟨12, _⟩ => ⟨S2x1x1, .f32⟩
  | .hbm, ⟨13, _⟩ => ⟨S1x1x1, .f32⟩
  | .hbm, ⟨14, _⟩ => ⟨S1x1, .f32⟩
  | .hbm, ⟨15, _⟩ => ⟨S1x1x1, .f32⟩
  | .hbm, ⟨16, _⟩ => ⟨S1x1, .f32⟩
  | .hbm, ⟨17, _⟩ => ⟨S1x1x1, .f32⟩
  | .hbm, ⟨18, _⟩ => ⟨S1x1, .f32⟩
  | .hbm, ⟨19, _⟩ => ⟨S1x1x1, .f32⟩
  | .hbm, ⟨20, _⟩ => ⟨S1x1, .f32⟩
  | .hbm, ⟨21, _⟩ => ⟨S1x256x256, .f32⟩
  | .hbm, ⟨22, _⟩ => ⟨S256x256, .f32⟩
  | .hbm, ⟨23, _⟩ => ⟨S1x256x256, .f32⟩
  | .hbm, ⟨24, _⟩ => ⟨S256x256, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S256x256, .f32⟩
  | .local _ .vmem, ⟨0, _⟩ => ⟨S1x5000x256, .f32⟩
  | .local _ .vmem, ⟨1, _⟩ => ⟨S1x5000x256, .f32⟩
  | .local _ .vmem, ⟨2, _⟩ => ⟨S1x1x1x5000, .i32⟩
  | .local _ .vmem, ⟨3, _⟩ => ⟨S1x1x1x5000, .i32⟩
  | .local _ .vmem, ⟨4, _⟩ => ⟨S256x128, .f32⟩
  | .local _ .vmem, ⟨5, _⟩ => ⟨S1x128, .f32⟩
  | .local _ .vmem, ⟨6, _⟩ => ⟨S128x1, .f32⟩
  | .local _ .vmem, ⟨7, _⟩ => ⟨S1x1, .f32⟩
  | .local _ .vmem, ⟨8, _⟩ => ⟨S1x256x256, .f32⟩
  | .local _ .vmem, ⟨9, _⟩ => ⟨S1x256x256, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S256x256, .f32⟩
  | .local _ .vmem, ⟨15, _⟩ => ⟨S1x1, .f32⟩
  | .local _ .vmem, ⟨16, _⟩ => ⟨S1x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v61 : BitVec 1 := Scalar.cmpi .eq arg1 c19_i32
  let v62 : BitVec 32 := Scalar.extui v61
  let c0_i32_31 : BitVec 32 := 0#32
  let v63 : BitVec 1 := Scalar.cmpi .ne v62 c0_i32_31
  v63

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S128_S1x128 : S128.ShapeCasts S1x128
  shapeCasts_S1_S1x1 : S1.ShapeCasts S1x1
  shapeCasts_S200000x256_S2x100000x256 : S200000x256.ShapeCasts S2x100000x256
  shapeCasts_S200000_S2x20x1x5000 : S200000.ShapeCasts S2x20x1x5000
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  broadcasts_S1x1_S5000x1 : S1x1.Broadcasts S5000x1
  reduces_S5000x1_S1 : S5000x1.Reduces [0] S1
  inb_S1x1x1x5000_S1x1x1x5000_0_0_0_0 : ∀ a, (![0, 0, 0, 0] : Fin 4 → Nat) a + S1x1x1x5000.size a ≤ S1x1x1x5000.size a
  h_S1x1x1x5000 : 0 < S1x1x1x5000.numel
  shapeCasts_S1x1x1x5000_S1x5000 : S1x1x1x5000.ShapeCasts S1x5000
  iota_S256x5000_d0_w32 : S256x5000.Iotas .tc 32 [0]
  broadcasts_S1x5000_S256x5000 : S1x5000.Broadcasts S256x5000
  natLt_1_32 : 1 < 32
  broadcasts_S5000x1_S5000x256 : S5000x1.Broadcasts S5000x256
  broadcasts_S1x1_S256x256 : S1x1.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  slices_S2x1x1_S1x1x1_0_0_0 : S2x1x1.Slices ![0, 0, 0] S1x1x1
  slices_S2x1x1_S1x1x1_1_0_0 : S2x1x1.Slices ![1, 0, 0] S1x1x1
  slices_S2x256x256_S1x256x256_0_0_0 : S2x256x256.Slices ![0, 0, 0] S1x256x256
  slices_S2x256x256_S1x256x256_1_0_0 : S2x256x256.Slices ![1, 0, 0] S1x256x256
  bcast_S1x1_S256x256_0_1 : S1x1.BroadcastsInDim S256x256 (![0, 1] : Fin 2 → Fin S256x256.rank)
  dot_S5000x256_S256x128_S5000x128_1_0_0_1_n_n_wf : DotDims.WF S5000x256 S256x128 S5000x128 [1] [0] [0] [1] [] []
  dot_S5000x128_S128x1_S5000x1_1_0_0_1_n_n_wf : DotDims.WF S5000x128 S128x1 S5000x1 [1] [0] [0] [1] [] []
  dot_S256x5000_S5000x256_S256x256_1_0_0_1_n_n_wf : DotDims.WF S256x5000 S5000x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S2x100000x256.size a
  hwx0_0 : ∀ i : grid0.Coords, EltTy.bits .f32 = 32 ∨ (Rect.block (s := S2x100000x256) S1x5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x5000.size a ≤ S2x20x1x5000.size a
  hwx0_1 : ∀ i : grid0.Coords, EltTy.bits .i32 = 32 ∨ (Rect.block (s := S2x20x1x5000) S1x1x1x5000.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S2x256x256.size a
  hwx0_6 : ∀ i : grid0.Coords, EltTy.bits .f32 = 32 ∨ (Rect.block (s := S2x256x256) S1x256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S256x5000_S5000x256_S256x256_1_0_0_1_n_n : DotDims S256x5000 S5000x256 S256x256 where
  lhsContracting := [1]
  rhsContracting := [0]
  lhsNonContracting := [0]
  rhsNonContracting := [1]
  lhsBatch := []
  rhsBatch := []
  wf := dot_S256x5000_S5000x256_S256x256_1_0_0_1_n_n_wf

abbrev win0_0 : Pipeline.Window sig grid0 :=
  Pipeline.Window.ofSpec (Memref.whole main_v2) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S200000x256 : Shape := ⟨2, ![200000, 256]⟩
abbrev S200000 : Shape := ⟨1, ![200000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S200000x128 : Shape := ⟨2, ![200000, 128]⟩
abbrev S1x128 : Shape := ⟨2, ![1, 128]⟩
abbrev S200000x1 : Shape := ⟨2, ![200000, 1]⟩
abbrev S1x1 : Shape := ⟨2, ![1, 1]⟩
abbrev S_ : Shape := ⟨0, ![]⟩
abbrev S256x256 : Shape := ⟨2, ![256, 256]⟩

abbrev nBuf : Space → Nat
  | .hbm => 35
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S200000x128, .f32⟩
  | .hbm, ⟨7, _⟩ => ⟨S1x128, .f32⟩
  | .hbm, ⟨8, _⟩ => ⟨S200000x128, .f32⟩
  | .hbm, ⟨9, _⟩ => ⟨S200000x128, .f32⟩
  | .hbm, ⟨10, _⟩ => ⟨S200000x128, .f32⟩
  | .hbm, ⟨11, _⟩ => ⟨S200000x1, .f32⟩
  | .hbm, ⟨12, _⟩ => ⟨S1x1, .f32⟩
  | .hbm, ⟨13, _⟩ => ⟨S200000x1, .f32⟩
  | .hbm, ⟨14, _⟩ => ⟨S200000x1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S1, .f32⟩
  | .hbm, ⟨20, _⟩ => ⟨S1x1, .f32⟩
  | .hbm, ⟨21, _⟩ => ⟨S200000x1, .f32⟩
  | .hbm, ⟨22, _⟩ => ⟨S200000x1, .f32⟩
  | .hbm, ⟨23, _⟩ => ⟨S200000x1, .f32⟩
  | .hbm, ⟨24, _⟩ => ⟨S_, .f32⟩
  | .hbm, ⟨25, _⟩ => ⟨S1, .f32⟩
  | .hbm, ⟨26, _⟩ => ⟨S1x1, .f32⟩
  | .hbm, ⟨27, _⟩ => ⟨S200000x1, .f32⟩
  | .hbm, ⟨28, _⟩ => ⟨S200000x1, .f32⟩
  | .hbm, ⟨29, _⟩ => ⟨S200000x256, .f32⟩
  | .hbm, ⟨30, _⟩ => ⟨S200000x256, .f32⟩
  | .hbm, ⟨31, _⟩ => ⟨S_, .f32⟩
  | .hbm, ⟨32, _⟩ => ⟨S256x256, .f32⟩
  | .hbm, ⟨33, _⟩ => ⟨S200000x1, .i32⟩
  | .hbm, ⟨34, _⟩ => ⟨S256x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S1_d0 : S200000x1.ReducesTo [0] S1
  h_S_ : 0 < S_.numel
  bcast_S_S1 : S_.BroadcastsInDim S1 (![] : Fin 0 → Fin S1.rank)
  bcast_S200000x1_S200000x256_0_1 : S200000x1.BroadcastsInDim S200000x256 (![0, 1] : Fin 2 → Fin S200000x256.rank)
  bcast_S_S256x256 : S_.BroadcastsInDim S256x256 (![] : Fin 0 → Fin S256x256.rank)
  bcast_S200000_S200000x1_0 : S200000.BroadcastsInDim S200000x1 (![0] : Fin 1 → Fin S200000x1.rank)
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []
  scatter_S256x256_S200000x1_S200000x256_1_0_0_1_wf : ScatterDims.WF S256x256 S200000x1 S200000x256 [1] [0] [0] 1

variable [Facts₀]

def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def scatter_S256x256_S200000x1_S200000x256_1_0_0_1 : ScatterDims S256x256 S200000x1 S200000x256 where
  updateWindowDims := [1]
  insertedWindowDims := [0]
  scatterDimsToOperandDims := [0]
  indexVectorDim := 1
  wf := scatter_S256x256_S200000x1_S200000x256_1_0_0_1_wf

class Facts : Prop extends Facts₀ where

variable [Facts]
-- ==== Proof.Tile.lean ====
/-
  One tile's update of the three running quantities, as the kernel body computes it: the new weighted sums, the new
  running maximum and the new running sum of exponentials, each a composition of the body's printed arithmetic
  applied to the tile's blocks and to what the previous tile left.  Stated at any float instance.
-/
import proofs.«401380_j11355893530634_3_alg».proof.Proof.Gen.KernelIdeal.Skeleton

noncomputable section

namespace Cert.KernelIdeal.Tile

open Idealize.ShloMosaic Cert.KernelIdeal Cert.KernelIdeal.Gen

variable {F : FTy → Type} [FloatOps F]

/-- The weighted sums after a tile: what was there, rescaled, plus the tile's rows dealt to their segments. -/
def stepAcc (x0 : Vec F S1x5000x256 .f32) (x1 : Vec F S1x1x1x5000 .i32) (x2 : Vec F S256x128 .f32) (x3 : Vec F S1x128 .f32)
    (x4 : Vec F S128x1 .f32) (x5 : Vec F S1x1 .f32) (acc : Vec F S256x256 .f32) (mx : Vec F S1x1 .f32) : Vec F S256x256 .f32 :=
  k0_pay1 (k0_pay10 x0) (k0_pay13 x0 x2 x3 x4 x5 mx) (k0_pay14 x0 x2 x3 x4 x5 mx) x1 acc

/-- The running maximum after a tile. -/
def stepMax (x0 : Vec F S1x5000x256 .f32) (x2 : Vec F S256x128 .f32) (x3 : Vec F S1x128 .f32)
    (x4 : Vec F S128x1 .f32) (x5 : Vec F S1x1 .f32) (mx : Vec F S1x1 .f32) : Vec F S1x1 .f32 :=
  k0_pay3 (k0_pay12 x0 x2 x3 x4 x5 mx)

/-- The running sum of exponentials after a tile. -/
def stepSum (x0 : Vec F S1x5000x256 .f32) (x2 : Vec F S256x128 .f32) (x3 : Vec F S1x128 .f32)
    (x4 : Vec F S128x1 .f32) (x5 : Vec F S1x1 .f32) (mx l : Vec F S1x1 .f32) : Vec F S1x1 .f32 :=
  k0_pay2 (k0_pay13 x0 x2 x3 x4 x5 mx) (k0_pay15 x0 x2 x3 x4 x5 mx) l

end Cert.KernelIdeal.Tile

end
-- ==== Proof.Pieces.lean ====
/-
  What each control case of the kernel body leaves behind, as values.

  The body has three cases by the tile's position in its pass: the first tile (the three scratch buffers are reset —
  zeros, -∞, zero — before the update), a middle tile, and the last tile (after the update the scratch buffers are
  copied to the three output blocks).  In every case the scratch buffers end at one tile's update (`Tile.stepAcc`,
  `Tile.stepMax`, `Tile.stepSum`) of what they held — of the reset values in the first case — and in the last case
  each output block is the reshaped copy of the updated scratch.  Stated at any float instance.
-/
import proofs.«401380_j11355893530634_3_alg».proof.Proof.Gen.KernelIdeal.Frame
import proofs.«401380_j11355893530634_3_alg».proof.Proof.Tile
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Tile

variable {F : FTy → Type} [FloatOps F]

/-- The zero offset vector of rank 2, written out, is the constant zero function. -/
theorem hz2 : (![0, 0] : Fin 2 → Nat) = fun _ => 0 := funext fun a => by fin_cases a <;> rfl

/-- The zero offset vector of rank 3, written out, is the constant zero function. -/
theorem hz3 : (![0, 0, 0] : Fin 3 → Nat) = fun _ => 0 := funext fun a => by fin_cases a <;> rfl

/-- The zero offset vector of rank 4, written out, is the constant zero function. -/
theorem hz4 : (![0, 0, 0, 0] : Fin 4 → Nat) = fun _ => 0 := funext fun a => by fin_cases a <;> rfl

/-- Case A (the first tile of a pass): the weighted-sum scratch ends at the tile's update. -/
theorem sout_A_0 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = stepAcc x0 x1 x2 x3 x4 x5 k0_pay7 k0_pay8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S256x256) hz2, View.readCov_unit_zero (S := S256x256) _ hz2]
  unfold stepAcc
  simp only [View.readAt_eq_ld, harg2.read_unread, harg3.read_unread, harg4.read_unread, harg5.read_unread, harg6.read_unread, harg7.read_unread,
    View.ld_unit_zero (S := S1x5000x256) hz3, View.ld_unit_zero (S := S1x1x1x5000) hz4, View.ld_unit_zero (S := S256x128) hz2, View.ld_unit_zero (S := S1x128) hz2, View.ld_unit_zero (S := S128x1) hz2, View.ld_unit_zero (S := S1x1) hz2, View.readCov_unit_zero (S := S1x1) _ hz2]

/-- Case A: the running-maximum scratch ends at the tile's update. -/
theorem sout_A_1 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = stepMax x0 x2 x3 x4 x5 k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1x1) hz2, View.readCov_unit_zero (S := S1x1) _ hz2]
  unfold stepMax
  simp only [View.readAt_eq_ld, harg2.read_unread, harg4.read_unread, harg5.read_unread, harg6.read_unread, harg7.read_unread,
    View.ld_unit_zero (S := S1x5000x256) hz3, View.ld_unit_zero (S := S256x128) hz2, View.ld_unit_zero (S := S1x128) hz2, View.ld_unit_zero (S := S128x1) hz2, View.ld_unit_zero (S := S1x1) hz2]

/-- Case A: the running-sum scratch ends at the tile's update. -/
theorem sout_A_2 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = stepSum x0 x2 x3 x4 x5 k0_pay8 k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1x1) hz2]
  unfold stepSum
  simp only [View.readAt_eq_ld, harg2.read_unread, harg4.read_unread, harg5.read_unread, harg6.read_unread, harg7.read_unread,
    View.ld_unit_zero (S := S1x5000x256) hz3, View.ld_unit_zero (S := S256x128) hz2, View.ld_unit_zero (S := S1x128) hz2, View.ld_unit_zero (S := S128x1) hz2, View.ld_unit_zero (S := S1x1) hz2, View.readCov_unit_zero (S := S1x1) _ hz2]

/-- Case B (a middle tile): the weighted-sum scratch ends at the tile's update. -/
theorem sout_B_0 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepAcc x0 x1 x2 x3 x4 x5 xs0 xs1 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  unfold stepAcc
  simp only [View.readAt_eq_ld, harg2.read_unread, harg3.read_unread, harg4.read_unread, harg5.read_unread, harg6.read_unread, harg7.read_unread, harg11.read_unread, harg12.read_unread,
    View.ld_unit_zero (S := S1x5000x256) hz3, View.ld_unit_zero (S := S1x1x1x5000) hz4, View.ld_unit_zero (S := S256x128) hz2, View.ld_unit_zero (S := S1x128) hz2, View.ld_unit_zero (S := S128x1) hz2, View.ld_unit_zero (S := S1x1) hz2, View.ld_unit_zero (S := S256x256) hz2]

/-- Case B: the running-maximum scratch ends at the tile's update. -/
theorem sout_B_1 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepMax x0 x2 x3 x4 x5 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  unfold stepMax
  simp only [View.readAt_eq_ld, harg2.read_unread, harg4.read_unread, harg5.read_unread, harg6.read_unread, harg7.read_unread, harg12.read_unread,
    View.ld_unit_zero (S := S1x5000x256) hz3, View.ld_unit_zero (S := S256x128) hz2, View.ld_unit_zero (S := S1x128) hz2, View.ld_unit_zero (S := S128x1) hz2, View.ld_unit_zero (S := S1x1) hz2]

/-- Case B: the running-sum scratch ends at the tile's update. -/
theorem sout_B_2 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : ¬cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepSum x0 x2 x3 x4 x5 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_B
  dsimp only
  sl_unfold_words
  rw [View.canon_unit_zero hz2]
  unfold stepSum
  simp only [View.readAt_eq_ld, harg2.read_unread, harg4.read_unread, harg5.read_unread, harg6.read_unread, harg7.read_unread, harg12.read_unread, harg13.read_unread,
    View.ld_unit_zero (S := S1x5000x256) hz3, View.ld_unit_zero (S := S256x128) hz2, View.ld_unit_zero (S := S1x128) hz2, View.ld_unit_zero (S := S128x1) hz2, View.ld_unit_zero (S := S1x1) hz2]

/-- Case C (the last tile of a pass): the weighted-sum scratch ends at the tile's update. -/
theorem sout_C_0 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepAcc x0 x1 x2 x3 x4 x5 xs0 xs1 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  unfold stepAcc
  simp only [View.readAt_eq_ld, harg2.read_unread, harg3.read_unread, harg4.read_unread, harg5.read_unread, harg6.read_unread, harg7.read_unread, harg11.read_unread, harg12.read_unread,
    View.ld_unit_zero (S := S1x5000x256) hz3, View.ld_unit_zero (S := S1x1x1x5000) hz4, View.ld_unit_zero (S := S256x128) hz2, View.ld_unit_zero (S := S1x128) hz2, View.ld_unit_zero (S := S128x1) hz2, View.ld_unit_zero (S := S1x1) hz2, View.ld_unit_zero (S := S256x256) hz2]

/-- Case C: the running-maximum scratch ends at the tile's update. -/
theorem sout_C_1 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepMax x0 x2 x3 x4 x5 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  unfold stepMax
  simp only [View.readAt_eq_ld, harg2.read_unread, harg4.read_unread, harg5.read_unread, harg6.read_unread, harg7.read_unread, harg12.read_unread,
    View.ld_unit_zero (S := S1x5000x256) hz3, View.ld_unit_zero (S := S256x128) hz2, View.ld_unit_zero (S := S1x128) hz2, View.ld_unit_zero (S := S128x1) hz2, View.ld_unit_zero (S := S1x1) hz2]

/-- Case C: the running-sum scratch ends at the tile's update. -/
theorem sout_C_2 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = stepSum x0 x2 x3 x4 x5 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz2]
  unfold stepSum
  simp only [View.readAt_eq_ld, harg2.read_unread, harg4.read_unread, harg5.read_unread, harg6.read_unread, harg7.read_unread, harg12.read_unread, harg13.read_unread,
    View.ld_unit_zero (S := S1x5000x256) hz3, View.ld_unit_zero (S := S256x128) hz2, View.ld_unit_zero (S := S1x128) hz2, View.ld_unit_zero (S := S128x1) hz2, View.ld_unit_zero (S := S1x1) hz2]

/-- Case C: output block 6 is the updated weighted sums, reshaped to [1, 256, 256]. -/
theorem out_C_6 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay4 (stepAcc x0 x1 x2 x3 x4 x5 xs0 xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  unfold stepAcc
  simp only [View.readAt_eq_ld, harg2.read_unread, harg3.read_unread, harg4.read_unread, harg5.read_unread, harg6.read_unread, harg7.read_unread, harg11.read_unread, harg12.read_unread,
    View.ld_unit_zero (S := S1x5000x256) hz3, View.ld_unit_zero (S := S1x1x1x5000) hz4, View.ld_unit_zero (S := S256x128) hz2, View.ld_unit_zero (S := S1x128) hz2, View.ld_unit_zero (S := S128x1) hz2, View.ld_unit_zero (S := S1x1) hz2, View.ld_unit_zero (S := S256x256) hz2, View.readCov_unit_zero (S := S256x256) _ hz2]

/-- Case C: output block 7 is the updated running maximum, reshaped to [1, 1, 1]. -/
theorem out_C_7 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay5 (stepMax x0 x2 x3 x4 x5 xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  unfold stepMax
  simp only [View.readAt_eq_ld, harg2.read_unread, harg4.read_unread, harg5.read_unread, harg6.read_unread, harg7.read_unread, harg12.read_unread,
    View.ld_unit_zero (S := S1x5000x256) hz3, View.ld_unit_zero (S := S256x128) hz2, View.ld_unit_zero (S := S1x128) hz2, View.ld_unit_zero (S := S128x1) hz2, View.ld_unit_zero (S := S1x1) hz2, View.readCov_unit_zero (S := S1x1) _ hz2]

/-- Case C: output block 8 is the updated running sum, reshaped to [1, 1, 1]. -/
theorem out_C_8 (c : Dev nD) (i : grid0.Coords) (arg2 : Memref sig .tc .vmem S1x5000x256 .f32) (harg2 : arg2.IsWhole) (arg3 : Memref sig .tc .vmem S1x1x1x5000 .i32) (harg3 : arg3.IsWhole) (arg4 : Memref sig .tc .vmem S256x128 .f32) (harg4 : arg4.IsWhole) (arg5 : Memref sig .tc .vmem S1x128 .f32) (harg5 : arg5.IsWhole) (arg6 : Memref sig .tc .vmem S128x1 .f32) (harg6 : arg6.IsWhole) (arg7 : Memref sig .tc .vmem S1x1 .f32) (harg7 : arg7.IsWhole) (arg8 : Memref sig .tc .vmem S1x256x256 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S256x256 .f32) (harg11 : arg11.IsWhole) (arg12 : Memref sig .tc .vmem S1x1 .f32) (harg12 : arg12.IsWhole) (arg13 : Memref sig .tc .vmem S1x1 .f32) (harg13 : arg13.IsWhole) (hc0 : ¬cond0_0 i) (hc1 : cond0_1 i)
    (x0 : Vec F S1x5000x256 .f32) (x1 : Vec F S1x1x1x5000 .i32) (x2 : Vec F S256x128 .f32) (x3 : Vec F S1x128 .f32) (x4 : Vec F S128x1 .f32) (x5 : Vec F S1x1 .f32) (xs0 : Vec F S256x256 .f32) (xs1 : Vec F S1x1 .f32) (xs2 : Vec F S1x1 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 = k0_pay6 (stepSum x0 x2 x3 x4 x5 xs1 xs2) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2)]
  unfold kernelRun0_C
  dsimp only
  sl_unfold_words
  rw [View.canon_unit_zero hz3]
  unfold stepSum
  simp only [View.readAt_eq_ld, harg2.read_unread, harg4.read_unread, harg5.read_unread, harg6.read_unread, harg7.read_unread, harg12.read_unread, harg13.read_unread,
    View.ld_unit_zero (S := S1x5000x256) hz3, View.ld_unit_zero (S := S256x128) hz2, View.ld_unit_zero (S := S1x128) hz2, View.ld_unit_zero (S := S128x1) hz2, View.ld_unit_zero (S := S1x1) hz2, View.readCov_unit_zero (S := S1x1) _ hz2]

end Cert.KernelIdeal.Pieces

end
-- ==== Proof.Scratch.lean ====
/-
  The three scratch buffers along the grid.

  The grid has forty points: two passes of twenty tiles.  After the point `n` the scratch buffers hold `traj n`: at the
  first tile of a pass, the update of the reset values by that tile; at every other point, the update by the point's
  tile of what the point before left.  At the last tile of a pass the three output blocks receive reshaped copies of
  that point's scratch contents.  Stated at any float instance.
-/
import proofs.«401380_j11355893530634_3_alg».proof.Proof.Gen.KernelIdeal.Frame
import proofs.«401380_j11355893530634_3_alg».proof.Proof.Tile
import proofs.«401380_j11355893530634_3_alg».proof.Proof.Pieces

set_option maxRecDepth 16384

noncomputable section

namespace Cert.KernelIdeal.Scratch

open Idealize.ShloMosaic Idealize.ShloMosaic.TcCoe Idealize.SL.Sem
open Cert.KernelIdeal Cert.KernelIdeal.Gen Cert.KernelIdeal.Tile Cert.KernelIdeal.Pieces

variable {F : FTy → Type} [FloatOps F]
variable (m : (ℓ : Loc nD τ sig) → Buf (Elt F) ℓ)

/-- The scratch contents a pass's first tile leaves: the update of the reset values (zeros, -∞, zero). -/
def firstAt (c : Dev nD) (t : Fin cfg0.N) : Vec F S256x256 .f32 × Vec F S1x1 .f32 × Vec F S1x1 .f32 :=
  (stepAcc (iblk m c 0 t) (iblk m c 1 t) (iblk m c 2 t) (iblk m c 3 t) (iblk m c 4 t) (iblk m c 5 t) k0_pay7 k0_pay8,
   stepMax (iblk m c 0 t) (iblk m c 2 t) (iblk m c 3 t) (iblk m c 4 t) (iblk m c 5 t) k0_pay8,
   stepSum (iblk m c 0 t) (iblk m c 2 t) (iblk m c 3 t) (iblk m c 4 t) (iblk m c 5 t) k0_pay8 k0_pay9)

/-- The scratch contents a later tile leaves over what the point before left. -/
def nextAt (c : Dev nD) (t : Fin cfg0.N) (prev : Vec F S256x256 .f32 × Vec F S1x1 .f32 × Vec F S1x1 .f32) :
    Vec F S256x256 .f32 × Vec F S1x1 .f32 × Vec F S1x1 .f32 :=
  (stepAcc (iblk m c 0 t) (iblk m c 1 t) (iblk m c 2 t) (iblk m c 3 t) (iblk m c 4 t) (iblk m c 5 t) prev.1 prev.2.1,
   stepMax (iblk m c 0 t) (iblk m c 2 t) (iblk m c 3 t) (iblk m c 4 t) (iblk m c 5 t) prev.2.1,
   stepSum (iblk m c 0 t) (iblk m c 2 t) (iblk m c 3 t) (iblk m c 4 t) (iblk m c 5 t) prev.2.1 prev.2.2)

/-- THE SCRATCH BUFFERS AFTER POINT `n`. -/
def traj (c : Dev nD) : (n : ℕ) → n < cfg0.N → Vec F S256x256 .f32 × Vec F S1x1 .f32 × Vec F S1x1 .f32
  | 0, h => firstAt m c ⟨0, h⟩
  | n + 1, h => if (n + 1) % 20 = 0 then firstAt m c ⟨n + 1, h⟩ else nextAt m c ⟨n + 1, h⟩ (traj c n (Nat.lt_of_succ_lt h))

theorem traj_first (c : Dev nD) (t : Fin cfg0.N) (h0 : t.val % 20 = 0) : traj m c t.val t.isLt = firstAt m c t := by
  obtain ⟨n, hn⟩ := t
  cases n with
  | zero => rfl
  | succ n => exact if_pos h0

theorem traj_next (c : Dev nD) (n : ℕ) (h : n + 1 < cfg0.N) (h0 : ¬(n + 1) % 20 = 0) :
    traj m c (n + 1) h = nextAt m c ⟨n + 1, h⟩ (traj m c n (Nat.lt_of_succ_lt h)) := if_neg h0

/-- What the generated per-point contents say of the scratch buffers is the trajectory. -/
theorem outsAt_scratch (c : Dev nD) : ∀ (n : ℕ) (h : n < cfg0.N), (outsAt0 m c n h).2.2.2 = traj m c n h
  | 0, h => by
    rw [outsAt0_A m c ⟨0, h⟩ rfl (by show ¬(0 % 20 = 19); decide)]
    dsimp only
    rw [traj_first m c ⟨0, h⟩ rfl]
    unfold firstAt
    rw [sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩),
      sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩),
      sout_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩)]
  | n + 1, h => by
    have hN : n + 1 < 40 := lt_of_lt_of_eq h (show cfg0.N = 40 from N_0)
    by_cases h0 : (n + 1) % 20 = 0
    · have h1 : ¬(n + 1) % 20 = 19 := by omega
      rw [outsAt0_A m c ⟨n + 1, h⟩ h0 h1]
      dsimp only
      rw [traj_first m c ⟨n + 1, h⟩ h0]
      unfold firstAt
      rw [sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩),
        sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩),
        sout_A_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩)]
    · rw [traj_next m c n h h0, ← outsAt_scratch c n (Nat.lt_of_succ_lt h)]
      unfold nextAt
      by_cases h1 : (n + 1) % 20 = 19
      · rw [outsAt0_C m c ⟨n + 1, h⟩ h0 h1]
        dsimp only
        rw [sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _,
          sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _,
          sout_C_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _]
        rfl
      · rw [outsAt0_B m c ⟨n + 1, h⟩ h0 h1]
        dsimp only
        rw [sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _,
          sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _,
          sout_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) _ _ _]
        rfl

/-- At the last tile of a pass the three output blocks are the reshaped copies of the point's scratch contents. -/
theorem outsAt_out (c : Dev nD) (t : Fin cfg0.N) (h19 : t.val % 20 = 19) :
    (outsAt0 m c t.val t.isLt).1 = k0_pay4 (traj m c t.val t.isLt).1
    ∧ (outsAt0 m c t.val t.isLt).2.1 = k0_pay5 (traj m c t.val t.isLt).2.1
    ∧ (outsAt0 m c t.val t.isLt).2.2.1 = k0_pay6 (traj m c t.val t.isLt).2.2 := by
  obtain ⟨n, hn⟩ := t
  cases n with
  | zero => exact absurd h19 (by show ¬(0 % 20 = 19); decide)
  | succ n =>
    have h0 : ¬(n + 1) % 20 = 0 := by have : (n + 1) % 20 = 19 := h19; omega
    have h1 : (n + 1) % 20 = 19 := h19
    show (outsAt0 m c (n + 1) hn).1 = k0_pay4 (traj m c (n + 1) hn).1
      ∧ (outsAt0 m c (n + 1) hn).2.1 = k0_pay5 (traj m c (n + 1) hn).2.1
      ∧ (outsAt0 m c (n + 1) hn).2.2.1 = k0_pay6 (traj m c (n + 1) hn).2.2
    rw [traj_next m c n hn h0, ← outsAt_scratch m c n (Nat.lt_of_succ_lt hn)]
    unfold nextAt
    rw [outsAt0_C m c ⟨n + 1, hn⟩ h0 h1]
    dsimp only
    rw [out_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _ _,
      out_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _ _,
      out_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) _ _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) _ _ _]
    exact ⟨rfl, rfl, rfl⟩

end Cert.KernelIdeal.Scratch

end
-- ==== Proof.Parts.lean ====
/-
  The three arrays the kernel region writes, as functions of the scratch trajectory.

  Each pass ends at its twentieth tile (grid points 19 and 39), where the scratch buffers are copied out: block `p` of
  each result array is what pass `p` accumulated.  Stated at any float instance.
-/
import proofs.«401380_j11355893530634_3_alg».proof.Proof.Scratch
import Idealize.ShloMosaic.Lib.ValueIdx

noncomputable section

namespace Cert.KernelIdeal.Parts

open Idealize.ShloMosaic Idealize.ShloMosaic.TcCoe Idealize.SL.Sem Idealize.ShloMosaic.ValueIdx
open Cert.KernelIdeal Cert.KernelIdeal.Gen Cert.KernelIdeal.Scratch

variable {F : FTy → Type} [FloatOps F]
variable (m : (ℓ : Loc nD τ sig) → Buf (Elt F) ℓ)

/-- The last grid point of pass `p`. -/
def lastPt (p : Fin 2) : Fin cfg0.N :=
  ⟨20 * p.val + 19, by have := p.isLt; rw [show cfg0.N = 40 from N_0]; omega⟩

theorem lastPt_val (p : Fin 2) : (lastPt p).val = 20 * p.val + 19 := rfl

/-- The scratch contents at the end of pass `p`. -/
def passEnd (c : Dev nD) (p : Fin 2) : Vec F S256x256 .f32 × Vec F S1x1 .f32 × Vec F S1x1 .f32 :=
  traj m c (lastPt p).val (lastPt p).isLt

/-- The weighted sums of both passes, as the [2, 256, 256] result array. -/
def accParts (c : Dev nD) : Buf (Elt F) ((c : Thread nD τ).loc main_v4_0) :=
  fun i => (passEnd m c ⟨(i 0).val, (i 0).isLt⟩).1 (ix2 ⟨(i 1).val, (i 1).isLt⟩ ⟨(i 2).val, (i 2).isLt⟩)

/-- The running maxima of both passes, as the [2, 1, 1] result array. -/
def maxParts (c : Dev nD) : Buf (Elt F) ((c : Thread nD τ).loc main_v4_1) :=
  fun i => (passEnd m c ⟨(i 0).val, (i 0).isLt⟩).2.1 (ix2 (0 : Fin 1) (0 : Fin 1))

/-- The running sums of both passes, as the [2, 1, 1] result array. -/
def sumParts (c : Dev nD) : Buf (Elt F) ((c : Thread nD τ).loc main_v4_2) :=
  fun i => (passEnd m c ⟨(i 0).val, (i 0).isLt⟩).2.2 (ix2 (0 : Fin 1) (0 : Fin 1))

end Cert.KernelIdeal.Parts

end
-- ==== Proof.Finals.lean ====
/-
  What the kernel region leaves in its three result arrays.

  An output window is written back only at the last tile of a pass (grid points 19 and 39); at point `20 p + 19` it
  writes block `p`, which holds the reshaped copy of that point's scratch contents.  The two blocks tile the array, so
  after the region each result array is the two passes' results side by side.  Stated at any float instance.
-/
import proofs.«401380_j11355893530634_3_alg».proof.Proof.Parts
import Idealize.ShloMosaic.Lib.Pipeline.Value
import Idealize.ShloMosaic.Lib.ValueLayout

set_option maxRecDepth 16384

noncomputable section

namespace Cert.KernelIdeal.Finals

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Scratch Cert.KernelIdeal.Parts

variable {F : FTy → Type} [FloatOps F]
variable (m : (ℓ : Loc nD τ sig) → Buf (Elt F) ℓ)

/-- The trajectory at a point depends on the point's number only. -/
theorem traj_congr (c : Dev nD) (n n' : ℕ) (h : n < cfg0.N) (h' : n' < cfg0.N) (e : n = n') :
    traj m c n h = traj m c n' h' := by subst e; rfl

/-! ## The weighted sums -/

/-- Window 6's block index at a grid point: the pass on the leading axis, zero on the two full axes. -/
theorem idx6 : ∀ t : Fin cfg0.N, win0_6.index t (0 : Fin 3) = t.val / 20 ∧ win0_6.index t (1 : Fin 3) = 0 ∧ win0_6.index t (2 : Fin 3) = 0 :=
  (by decide +kernel : ∀ t : Fin grid0.N, win0_6.index t (0 : Fin 3) = t.val / 20 ∧ win0_6.index t (1 : Fin 3) = 0 ∧ win0_6.index t (2 : Fin 3) = 0)

/-- An entry of the weighted-sum array, read from the trajectory at the last point of the entry's pass. -/
theorem accParts_apply (c : Dev nD) (i : S2x256x256.Idx) (n : ℕ) (h : n < cfg0.N) (hn : n = 20 * (i 0).val + 19)
    (k : S256x256.Idx) (hk0 : (k 0).val = (i 1).val) (hk1 : (k 1).val = (i 2).val) :
    accParts m c i = (traj m c n h).1 k := by
  unfold accParts passEnd
  rw [traj_congr m c _ n (lastPt _).isLt h (by rw [lastPt_val]; exact hn.symm)]
  refine congrArg _ (funext fun a => ?_)
  match a with
  | ⟨0, _⟩ => exact Fin.ext hk0.symm
  | ⟨1, _⟩ => exact Fin.ext hk1.symm

/-- What a flushing point writes back through window 6 is its block of the weighted-sum array: entry (0, b, d) of the
    block is entry (b, d) of the scratch contents (the reshape adds a unit axis), which is entry (pass, b, d) of the array
    since the point is the last of its pass. -/
theorem flushed6_eq (c : Dev nD) (t : Fin cfg0.N) (hf : (cfg0.win 6).flush t = true) :
    (dats m 0 c).flushed 6 t = ((cfg0.win 6).blk t).view.read (Elt F) (accParts m c) := by
  have h19 : t.val % 20 = 19 := (flush0_6 t).mp hf
  obtain ⟨e0, e1, e2⟩ := idx6 t
  show (cfg0.win 6).cut (grid0.coords t) ((dats m 0 c).after 6 t) = _
  rw [after0_6, (outsAt_out m c t h19).1]
  funext y
  rw [View.read_apply]
  show k0_pay4 (traj m c t.val t.isLt).1 ((cfg0.win 6).xinj (grid0.coords t) y) = accParts m c (((cfg0.win 6).blk t).view.emb y)
  unfold k0_pay4
  dsimp only
  rw [shapeCast_addUnit_apply]
  have y0 : (y 0).val < 1 := (y 0).isLt
  refine (accParts_apply m c _ t.val t.isLt ?_ _ ?_ ?_).symm
  · show t.val = 20 * (win0_6.index t (0 : Fin 3) * 1 + 1 * (y 0).val) + 19
    rw [e0]; omega
  · show (y 1).val = win0_6.index t (1 : Fin 3) * 256 + 1 * (y 1).val
    rw [e1]; omega
  · show (y 2).val = win0_6.index t (2 : Fin 3) * 256 + 1 * (y 2).val
    rw [e2]; omega

/-- The weighted-sum array after the region. -/
theorem final6 (c : Dev nD) : (dats m 0 c).arrAt 6 cfg0.N = accParts m c :=
  (dats m 0 c).arrAt_eq_of_cover 6 (accParts m c) (flushed6_eq m c) fun i => by
    have i0 : (i 0).val < 2 := (i 0).isLt
    have i1 : (i 1).val < 256 := (i 1).isLt
    have i2 : (i 2).val < 256 := (i 2).isLt
    refine ⟨lastPt ⟨(i 0).val, i0⟩, (flush0_6 _).mpr (by rw [lastPt_val]; omega), ?_⟩
    obtain ⟨e0, e1, e2⟩ := idx6 (lastPt ⟨(i 0).val, i0⟩)
    have e0' : win0_6.index (lastPt ⟨(i 0).val, i0⟩) (0 : Fin 3) = (20 * (i 0).val + 19) / 20 := e0
    show i ∈ ((View.whole main_v4_0).slice (win0_6.rect (lastPt ⟨(i 0).val, i0⟩))).set
    rw [View.set_slice_whole, Rect.mem_set_unit]
    intro a
    match a with
    | ⟨0, _⟩ =>
      show win0_6.index (lastPt ⟨(i 0).val, i0⟩) (0 : Fin 3) * 1 ≤ (i 0).val
        ∧ (i 0).val < win0_6.index (lastPt ⟨(i 0).val, i0⟩) (0 : Fin 3) * 1 + 1
      rw [e0']; omega
    | ⟨1, _⟩ =>
      show win0_6.index (lastPt ⟨(i 0).val, i0⟩) (1 : Fin 3) * 256 ≤ (i 1).val
        ∧ (i 1).val < win0_6.index (lastPt ⟨(i 0).val, i0⟩) (1 : Fin 3) * 256 + 256
      rw [e1]; omega
    | ⟨2, _⟩ =>
      show win0_6.index (lastPt ⟨(i 0).val, i0⟩) (2 : Fin 3) * 256 ≤ (i 2).val
        ∧ (i 2).val < win0_6.index (lastPt ⟨(i 0).val, i0⟩) (2 : Fin 3) * 256 + 256
      rw [e2]; omega

/-! ## The running maxima -/

/-- Window 7's block index at a grid point: the pass on the leading axis, zero on the two unit axes. -/
theorem idx7 : ∀ t : Fin cfg0.N, win0_7.index t (0 : Fin 3) = t.val / 20 ∧ win0_7.index t (1 : Fin 3) = 0 ∧ win0_7.index t (2 : Fin 3) = 0 :=
  (by decide +kernel : ∀ t : Fin grid0.N, win0_7.index t (0 : Fin 3) = t.val / 20 ∧ win0_7.index t (1 : Fin 3) = 0 ∧ win0_7.index t (2 : Fin 3) = 0)

/-- An entry of the running-maximum array, read from the trajectory at the last point of the entry's pass (a [1, 1] buffer has
    one entry, so any index of it will do). -/
theorem maxParts_apply (c : Dev nD) (i : S2x1x1.Idx) (n : ℕ) (h : n < cfg0.N) (hn : n = 20 * (i 0).val + 19)
    (k : S1x1.Idx) : maxParts m c i = (traj m c n h).2.1 k := by
  unfold maxParts passEnd
  rw [traj_congr m c _ n (lastPt _).isLt h (by rw [lastPt_val]; exact hn.symm)]
  refine congrArg _ (funext fun a => ?_)
  match a with
  | ⟨0, _⟩ => exact Fin.ext (by have : (k 0).val < 1 := (k 0).isLt; show 0 = (k 0).val; omega)
  | ⟨1, _⟩ => exact Fin.ext (by have : (k 1).val < 1 := (k 1).isLt; show 0 = (k 1).val; omega)

/-- What a flushing point writes back through window 7 is its block of the running-maximum array. -/
theorem flushed7_eq (c : Dev nD) (t : Fin cfg0.N) (hf : (cfg0.win 7).flush t = true) :
    (dats m 0 c).flushed 7 t = ((cfg0.win 7).blk t).view.read (Elt F) (maxParts m c) := by
  have h19 : t.val % 20 = 19 := (flush0_7 t).mp hf
  obtain ⟨e0, e1, e2⟩ := idx7 t
  show (cfg0.win 7).cut (grid0.coords t) ((dats m 0 c).after 7 t) = _
  rw [after0_7, (outsAt_out m c t h19).2.1]
  funext y
  rw [View.read_apply]
  show k0_pay5 (traj m c t.val t.isLt).2.1 ((cfg0.win 7).xinj (grid0.coords t) y) = maxParts m c (((cfg0.win 7).blk t).view.emb y)
  unfold k0_pay5
  dsimp only
  rw [shapeCast_addUnit_apply]
  have y0 : (y 0).val < 1 := (y 0).isLt
  refine (maxParts_apply m c _ t.val t.isLt ?_ _).symm
  show t.val = 20 * (win0_7.index t (0 : Fin 3) * 1 + 1 * (y 0).val) + 19
  rw [e0]; omega

/-- The running-maximum array after the region. -/
theorem final7 (c : Dev nD) : (dats m 0 c).arrAt 7 cfg0.N = maxParts m c :=
  (dats m 0 c).arrAt_eq_of_cover 7 (maxParts m c) (flushed7_eq m c) fun i => by
    have i0 : (i 0).val < 2 := (i 0).isLt
    have i1 : (i 1).val < 1 := (i 1).isLt
    have i2 : (i 2).val < 1 := (i 2).isLt
    refine ⟨lastPt ⟨(i 0).val, i0⟩, (flush0_7 _).mpr (by rw [lastPt_val]; omega), ?_⟩
    obtain ⟨e0, e1, e2⟩ := idx7 (lastPt ⟨(i 0).val, i0⟩)
    have e0' : win0_7.index (lastPt ⟨(i 0).val, i0⟩) (0 : Fin 3) = (20 * (i 0).val + 19) / 20 := e0
    show i ∈ ((View.whole main_v4_1).slice (win0_7.rect (lastPt ⟨(i 0).val, i0⟩))).set
    rw [View.set_slice_whole, Rect.mem_set_unit]
    intro a
    match a with
    | ⟨0, _⟩ =>
      show win0_7.index (lastPt ⟨(i 0).val, i0⟩) (0 : Fin 3) * 1 ≤ (i 0).val
        ∧ (i 0).val < win0_7.index (lastPt ⟨(i 0).val, i0⟩) (0 : Fin 3) * 1 + 1
      rw [e0']; omega
    | ⟨1, _⟩ =>
      show win0_7.index (lastPt ⟨(i 0).val, i0⟩) (1 : Fin 3) * 1 ≤ (i 1).val
        ∧ (i 1).val < win0_7.index (lastPt ⟨(i 0).val, i0⟩) (1 : Fin 3) * 1 + 1
      rw [e1]; omega
    | ⟨2, _⟩ =>
      show win0_7.index (lastPt ⟨(i 0).val, i0⟩) (2 : Fin 3) * 1 ≤ (i 2).val
        ∧ (i 2).val < win0_7.index (lastPt ⟨(i 0).val, i0⟩) (2 : Fin 3) * 1 + 1
      rw [e2]; omega

/-! ## The running sums -/

/-- Window 8's block index at a grid point: the pass on the leading axis, zero on the two unit axes. -/
theorem idx8 : ∀ t : Fin cfg0.N, win0_8.index t (0 : Fin 3) = t.val / 20 ∧ win0_8.index t (1 : Fin 3) = 0 ∧ win0_8.index t (2 : Fin 3) = 0 :=
  (by decide +kernel : ∀ t : Fin grid0.N, win0_8.index t (0 : Fin 3) = t.val / 20 ∧ win0_8.index t (1 : Fin 3) = 0 ∧ win0_8.index t (2 : Fin 3) = 0)

/-- An entry of the running-sum array, read from the trajectory at the last point of the entry's pass (a [1, 1] buffer has
    one entry, so any index of it will do). -/
theorem sumParts_apply (c : Dev nD) (i : S2x1x1.Idx) (n : ℕ) (h : n < cfg0.N) (hn : n = 20 * (i 0).val + 19)
    (k : S1x1.Idx) : sumParts m c i = (traj m c n h).2.2 k := by
  unfold sumParts passEnd
  rw [traj_congr m c _ n (lastPt _).isLt h (by rw [lastPt_val]; exact hn.symm)]
  refine congrArg _ (funext fun a => ?_)
  match a with
  | ⟨0, _⟩ => exact Fin.ext (by have : (k 0).val < 1 := (k 0).isLt; show 0 = (k 0).val; omega)
  | ⟨1, _⟩ => exact Fin.ext (by have : (k 1).val < 1 := (k 1).isLt; show 0 = (k 1).val; omega)

/-- What a flushing point writes back through window 8 is its block of the running-sum array. -/
theorem flushed8_eq (c : Dev nD) (t : Fin cfg0.N) (hf : (cfg0.win 8).flush t = true) :
    (dats m 0 c).flushed 8 t = ((cfg0.win 8).blk t).view.read (Elt F) (sumParts m c) := by
  have h19 : t.val % 20 = 19 := (flush0_8 t).mp hf
  obtain ⟨e0, e1, e2⟩ := idx8 t
  show (cfg0.win 8).cut (grid0.coords t) ((dats m 0 c).after 8 t) = _
  rw [after0_8, (outsAt_out m c t h19).2.2]
  funext y
  rw [View.read_apply]
  show k0_pay6 (traj m c t.val t.isLt).2.2 ((cfg0.win 8).xinj (grid0.coords t) y) = sumParts m c (((cfg0.win 8).blk t).view.emb y)
  unfold k0_pay6
  dsimp only
  rw [shapeCast_addUnit_apply]
  have y0 : (y 0).val < 1 := (y 0).isLt
  refine (sumParts_apply m c _ t.val t.isLt ?_ _).symm
  show t.val = 20 * (win0_8.index t (0 : Fin 3) * 1 + 1 * (y 0).val) + 19
  rw [e0]; omega

/-- The running-sum array after the region. -/
theorem final8 (c : Dev nD) : (dats m 0 c).arrAt 8 cfg0.N = sumParts m c :=
  (dats m 0 c).arrAt_eq_of_cover 8 (sumParts m c) (flushed8_eq m c) fun i => by
    have i0 : (i 0).val < 2 := (i 0).isLt
    have i1 : (i 1).val < 1 := (i 1).isLt
    have i2 : (i 2).val < 1 := (i 2).isLt
    refine ⟨lastPt ⟨(i 0).val, i0⟩, (flush0_8 _).mpr (by rw [lastPt_val]; omega), ?_⟩
    obtain ⟨e0, e1, e2⟩ := idx8 (lastPt ⟨(i 0).val, i0⟩)
    have e0' : win0_8.index (lastPt ⟨(i 0).val, i0⟩) (0 : Fin 3) = (20 * (i 0).val + 19) / 20 := e0
    show i ∈ ((View.whole main_v4_2).slice (win0_8.rect (lastPt ⟨(i 0).val, i0⟩))).set
    rw [View.set_slice_whole, Rect.mem_set_unit]
    intro a
    match a with
    | ⟨0, _⟩ =>
      show win0_8.index (lastPt ⟨(i 0).val, i0⟩) (0 : Fin 3) * 1 ≤ (i 0).val
        ∧ (i 0).val < win0_8.index (lastPt ⟨(i 0).val, i0⟩) (0 : Fin 3) * 1 + 1
      rw [e0']; omega
    | ⟨1, _⟩ =>
      show win0_8.index (lastPt ⟨(i 0).val, i0⟩) (1 : Fin 3) * 1 ≤ (i 1).val
        ∧ (i 1).val < win0_8.index (lastPt ⟨(i 0).val, i0⟩) (1 : Fin 3) * 1 + 1
      rw [e1]; omega
    | ⟨2, _⟩ =>
      show win0_8.index (lastPt ⟨(i 0).val, i0⟩) (2 : Fin 3) * 1 ≤ (i 2).val
        ∧ (i 2).val < win0_8.index (lastPt ⟨(i 0).val, i0⟩) (2 : Fin 3) * 1 + 1
      rw [e2]; omega

end Cert.KernelIdeal.Finals

end
-- ==== Proof.KernelRun.lean ====
/-
  The kernel program's run, read as a value.

  After the region, the host merges the two passes: with `M = max M₀ M₁` and `cₚ = exp (Mₚ - M)`, the result is
  `(A₀ · c₀ + A₁ · c₁) / (L₀ · c₀ + L₁ · c₁)`, entry by entry.  `epilogue` is that merge as one function of the three
  result arrays; the program's run ends with its result at the epilogue of the region's arrays, its arguments unchanged.
-/
import proofs.«401380_j11355893530634_3_alg».proof.Proof.Finals
import Idealize.ShloMosaic.Lib.StableHlo.Run
import Idealize.ShloMosaic.Lib.Pipeline.Value
import Idealize.ShloMosaic.Lib.ValueLayout
import Idealize.ShloMosaic.PureOps.Ideal.Laws

set_option maxRecDepth 16384

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Scratch Cert.KernelIdeal.Parts Cert.KernelIdeal.Finals

variable {F : FTy → Type} [FloatOps F]

/-- THE HOST'S MERGE of the two passes, as one function of the three result arrays: the twenty-seven host operations
    after the region, composed. -/
def epilogue (a : (⟨S2x256x256, .f32⟩ : BufTy).Contents (Elt F)) (mm ll : (⟨S2x1x1, .f32⟩ : BufTy).Contents (Elt F)) :
    (⟨S256x256, .f32⟩ : BufTy).Contents (Elt F) :=
  let m0 : (⟨S1x1, .f32⟩ : BufTy).Contents (Elt F) :=
    shapeCast S1x1 (extractStridedSlice S1x1x1 ![0, 0, 0] mm slices_S2x1x1_S1x1x1_0_0_0) shapeCasts_S1x1x1_S1x1
  let m1 : (⟨S1x1, .f32⟩ : BufTy).Contents (Elt F) :=
    shapeCast S1x1 (extractStridedSlice S1x1x1 ![1, 0, 0] mm slices_S2x1x1_S1x1x1_1_0_0) shapeCasts_S1x1x1_S1x1
  let l0 : (⟨S1x1, .f32⟩ : BufTy).Contents (Elt F) :=
    shapeCast S1x1 (extractStridedSlice S1x1x1 ![0, 0, 0] ll slices_S2x1x1_S1x1x1_0_0_0) shapeCasts_S1x1x1_S1x1
  let l1 : (⟨S1x1, .f32⟩ : BufTy).Contents (Elt F) :=
    shapeCast S1x1 (extractStridedSlice S1x1x1 ![1, 0, 0] ll slices_S2x1x1_S1x1x1_1_0_0) shapeCasts_S1x1x1_S1x1
  let a0 : (⟨S256x256, .f32⟩ : BufTy).Contents (Elt F) :=
    shapeCast S256x256 (extractStridedSlice S1x256x256 ![0, 0, 0] a slices_S2x256x256_S1x256x256_0_0_0) shapeCasts_S1x256x256_S256x256
  let a1 : (⟨S256x256, .f32⟩ : BufTy).Contents (Elt F) :=
    shapeCast S256x256 (extractStridedSlice S1x256x256 ![1, 0, 0] a slices_S2x256x256_S1x256x256_1_0_0) shapeCasts_S1x256x256_S256x256
  let mx : (⟨S1x1, .f32⟩ : BufTy).Contents (Elt F) := maximumf m0 m1
  let c0 : (⟨S1x1, .f32⟩ : BufTy).Contents (Elt F) := Host.exp (subf m0 mx)
  let c1 : (⟨S1x1, .f32⟩ : BufTy).Contents (Elt F) := Host.exp (subf m1 mx)
  let l : (⟨S1x1, .f32⟩ : BufTy).Contents (Elt F) := addf (mulf l0 c0) (mulf l1 c1)
  let acc : (⟨S256x256, .f32⟩ : BufTy).Contents (Elt F) :=
    addf (mulf a0 (broadcastInDim S256x256 ![0, 1] bcast_S1x1_S256x256_0_1 c0))
      (mulf a1 (broadcastInDim S256x256 ![0, 1] bcast_S1x1_S256x256_0_1 c1))
  Host.divf acc (broadcastInDim S256x256 ![0, 1] bcast_S1x1_S256x256_0_1 l)

section Reads

variable {α : Type}

/-- Entry `0` of a `[2, 1, 1]` array, cut out as `[0:1]` and cast to `[1, 1]`. -/
theorem part0_apply (v : S2x1x1.Idx → α) :
    shapeCast S1x1 (extractStridedSlice S1x1x1 ![0, 0, 0] v slices_S2x1x1_S1x1x1_0_0_0) shapeCasts_S1x1x1_S1x1
        (ix2 (0 : Fin 1) (0 : Fin 1))
      = v (ix3 (0 : Fin 2) (0 : Fin 1) (0 : Fin 1)) :=
  (shapeCast_1ab_ab_apply _ _ (0 : Fin 1) (0 : Fin 1)).trans
    (extractStridedSlice_apply _ _ _ _ _ (fun ax => by
      match ax with
      | ⟨0, _⟩ => rfl
      | ⟨1, _⟩ => rfl
      | ⟨2, _⟩ => rfl))

/-- Entry `1` of a `[2, 1, 1]` array, cut out as `[1:2]` and cast to `[1, 1]`. -/
theorem part1_apply (v : S2x1x1.Idx → α) :
    shapeCast S1x1 (extractStridedSlice S1x1x1 ![1, 0, 0] v slices_S2x1x1_S1x1x1_1_0_0) shapeCasts_S1x1x1_S1x1
        (ix2 (0 : Fin 1) (0 : Fin 1))
      = v (ix3 (1 : Fin 2) (0 : Fin 1) (0 : Fin 1)) :=
  (shapeCast_1ab_ab_apply _ _ (0 : Fin 1) (0 : Fin 1)).trans
    (extractStridedSlice_apply _ _ _ _ _ (fun ax => by
      match ax with
      | ⟨0, _⟩ => rfl
      | ⟨1, _⟩ => rfl
      | ⟨2, _⟩ => rfl))

/-- Plane `0` of a `[2, 256, 256]` array, cut out as `[0:1]` and cast to `[256, 256]`, at `(b, d)`. -/
theorem plane0_apply (v : S2x256x256.Idx → α) (b d : Fin 256) :
    shapeCast S256x256 (extractStridedSlice S1x256x256 ![0, 0, 0] v slices_S2x256x256_S1x256x256_0_0_0)
        shapeCasts_S1x256x256_S256x256 (ix2 b d)
      = v (ix3 (0 : Fin 2) b d) :=
  (shapeCast_1ab_ab_apply _ _ b d).trans
    (extractStridedSlice_apply _ _ _ _ _ (fun ax => by
      match ax with
      | ⟨0, _⟩ => rfl
      | ⟨1, _⟩ => exact (Nat.zero_add _).symm
      | ⟨2, _⟩ => exact (Nat.zero_add _).symm))

/-- Plane `1` of a `[2, 256, 256]` array, cut out as `[1:2]` and cast to `[256, 256]`, at `(b, d)`. -/
theorem plane1_apply (v : S2x256x256.Idx → α) (b d : Fin 256) :
    shapeCast S256x256 (extractStridedSlice S1x256x256 ![1, 0, 0] v slices_S2x256x256_S1x256x256_1_0_0)
        shapeCasts_S1x256x256_S256x256 (ix2 b d)
      = v (ix3 (1 : Fin 2) b d) :=
  (shapeCast_1ab_ab_apply _ _ b d).trans
    (extractStridedSlice_apply _ _ _ _ _ (fun ax => by
      match ax with
      | ⟨0, _⟩ => rfl
      | ⟨1, _⟩ => exact (Nat.zero_add _).symm
      | ⟨2, _⟩ => exact (Nat.zero_add _).symm))

/-- A `[1, 1]` array broadcast over `[256, 256]` reads its one entry everywhere. -/
theorem bcast_apply (x : S1x1.Idx → α) (b d : Fin 256) :
    broadcastInDim S256x256 ![0, 1] bcast_S1x1_S256x256_0_1 x (ix2 b d) = x (ix2 (0 : Fin 1) (0 : Fin 1)) :=
  broadcastInDim_apply _ _ _ _ _ (fun ax => by
    match ax with
    | ⟨0, _⟩ => rfl
    | ⟨1, _⟩ => rfl)

end Reads

/-- The host's exponential at the ideal instance, at an index. -/
theorem hostExp_apply {s : Shape} (x : FVec Ideal s .f32) (i : s.Idx) : Host.exp x i = Ideal.exp (x i) := rfl

/-- The host's quotient at the ideal instance, at an index. -/
theorem hostDivf_apply {s : Shape} (x y : FVec Ideal s .f32) (i : s.Idx) : Host.divf x y i = Ideal.div (x i) (y i) := rfl

/-- The merge at entry `(b, d)`, at the ideal instance. -/
theorem epilogue_apply (a : (⟨S2x256x256, .f32⟩ : BufTy).Contents (Elt Ideal)) (mm ll : (⟨S2x1x1, .f32⟩ : BufTy).Contents (Elt Ideal))
    (b d : Fin 256) :
    epilogue a mm ll (ix2 b d)
      = Ideal.div
          (a (ix3 (0 : Fin 2) b d) * Ideal.exp (mm (ix3 (0 : Fin 2) (0 : Fin 1) (0 : Fin 1)) - max (mm (ix3 (0 : Fin 2) (0 : Fin 1) (0 : Fin 1))) (mm (ix3 (1 : Fin 2) (0 : Fin 1) (0 : Fin 1))))
            + a (ix3 (1 : Fin 2) b d) * Ideal.exp (mm (ix3 (1 : Fin 2) (0 : Fin 1) (0 : Fin 1)) - max (mm (ix3 (0 : Fin 2) (0 : Fin 1) (0 : Fin 1))) (mm (ix3 (1 : Fin 2) (0 : Fin 1) (0 : Fin 1)))))
          (ll (ix3 (0 : Fin 2) (0 : Fin 1) (0 : Fin 1)) * Ideal.exp (mm (ix3 (0 : Fin 2) (0 : Fin 1) (0 : Fin 1)) - max (mm (ix3 (0 : Fin 2) (0 : Fin 1) (0 : Fin 1))) (mm (ix3 (1 : Fin 2) (0 : Fin 1) (0 : Fin 1))))
            + ll (ix3 (1 : Fin 2) (0 : Fin 1) (0 : Fin 1)) * Ideal.exp (mm (ix3 (1 : Fin 2) (0 : Fin 1) (0 : Fin 1)) - max (mm (ix3 (0 : Fin 2) (0 : Fin 1) (0 : Fin 1))) (mm (ix3 (1 : Fin 2) (0 : Fin 1) (0 : Fin 1))))) := by
  unfold epilogue
  simp only [hostDivf_apply, addf_apply, mulf_apply, plane0_apply, plane1_apply]
  rw [bcast_apply, bcast_apply, bcast_apply]
  simp only [hostExp_apply, addf_apply, mulf_apply, subf_apply, maximumf_apply, part0_apply, part1_apply]

variable (m : (ℓ : Loc nD τ sig) → Buf (Elt F) ℓ) (ρ : Dev nD → PrngReg)

/-- The region's three result arrays, as the host tail reads them after the region. -/
theorem tail_arr6 (c : Dev nD) :
    Pipeline.withArrays (cfgs 0).spec c (V0 m c) (fun w => (dats m 0 c).arrAt w (cfgs 0).N) (Proc.devRef .tc main_v4_0)
      = accParts m c :=
  (Pipeline.withArrays_arr spec0 launch0.win.arr_inj c _ _ 6).trans (final6 m c)

theorem tail_arr7 (c : Dev nD) :
    Pipeline.withArrays (cfgs 0).spec c (V0 m c) (fun w => (dats m 0 c).arrAt w (cfgs 0).N) (Proc.devRef .tc main_v4_1)
      = maxParts m c :=
  (Pipeline.withArrays_arr spec0 launch0.win.arr_inj c _ _ 7).trans (final7 m c)

theorem tail_arr8 (c : Dev nD) :
    Pipeline.withArrays (cfgs 0).spec c (V0 m c) (fun w => (dats m 0 c).arrAt w (cfgs 0).N) (Proc.devRef .tc main_v4_2)
      = sumParts m c :=
  (Pipeline.withArrays_arr spec0 launch0.win.arr_inj c _ _ 8).trans (final8 m c)

/-- The host tail's result buffer holds the merge of the region's three result arrays. -/
theorem tail_value (c : Dev nD) :
    Pipeline.afterTail₀ cfgs (dats m) 0 (V0 m) [hostOps1] c main_v31
      = epilogue (accParts m c) (maxParts m c) (sumParts m c) := by
  unfold Pipeline.afterTail₀
  show StableHlo.after hostOps1 _ (Proc.devRef .tc main_v31) = _
  after_results_simp
  rw [tail_arr6 m c, tail_arr7 m c, tail_arr8 m c]
  rfl

/-- THE RUN: every weakly fair execution ends with the result at the merge of the two passes' arrays and the six
    arguments unchanged. -/
theorem run_value : θ_run defs (onTc (τ := τ) (main (F := F))) ⟨m, fun _ => 0, ρ⟩ (fun r => ∀ c : Dev nD,
      r.2.mem ((c.tc : Thread nD τ).loc main_v31) = epilogue (accParts m c) (maxParts m c) (sumParts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v31 (Pipeline.mem_restRefs_of main_v31 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KernelRun

end
-- ==== Proof.Spec.lean ====
/-
  Attention pooling over graph segments, on real numbers.

  Every row `n` of the node table gets a score `s n` from a two-layer perceptron (a hidden layer with `tanh`, one
  output unit); the scores are turned into softmax weights over ALL rows; row `n`, scaled by its weight, is added into
  the output row its segment word names.  The streaming form of the same computation walks the rows tile by tile and
  keeps three running quantities — a weighted sum per output entry, the largest score so far, the sum of the
  exponentials — each taken relative to the running maximum and rescaled whenever the maximum moves.
-/
import Idealize.ShloMosaic.PureOps.Ideal

noncomputable section

namespace Cert.Pool

open scoped BigOperators

/-- The score of one row: `(∑ₕ tanh (∑_d x_d · w1_{d h} + b1_h) · w2_h) + b2`. -/
def score {D H : ℕ} (w1 : Fin D → Fin H → ℝ) (b1 : Fin H → ℝ) (w2 : Fin H → ℝ) (b2 : ℝ) (xrow : Fin D → ℝ) : ℝ :=
  (∑ h, Real.tanh ((∑ d, xrow d * w1 d h) + b1 h) * w2 h) + b2

/-- `1` when the 32-bit word, read as a signed integer, is the segment number `b`; `0` otherwise. -/
def hit (w : BitVec 32) (b : ℕ) : ℝ := if w.toInt = (b : ℤ) then 1 else 0

/-- The three running quantities: the weighted sums, the running maximum, the running sum of exponentials. -/
abbrev Running := (Fin 256 → Fin 256 → ℝ) × ℝ × ℝ

/-- The largest score of a tile of 5000 rows. -/
def tileMax (S : Fin 5000 → ℝ) : ℝ := Finset.univ.sup' ⟨0, Finset.mem_univ _⟩ S

/-- A tile met after others: the maximum moves to `M' = max M (tile's maximum)`, what was accumulated is rescaled by
    `exp (M - M')`, and the tile's rows come in relative to `M'`. -/
def tileNext (X : Fin 5000 → Fin 256 → ℝ) (Bt : Fin 5000 → BitVec 32) (S : Fin 5000 → ℝ) (st : Running) : Running :=
  (fun b d => st.1 b d * Real.exp (st.2.1 - max st.2.1 (tileMax S))
      + ∑ r, (hit (Bt r) b.val * X r d) * Real.exp (S r - max st.2.1 (tileMax S)),
   max st.2.1 (tileMax S),
   st.2.2 * Real.exp (st.2.1 - max st.2.1 (tileMax S)) + ∑ r, Real.exp (S r - max st.2.1 (tileMax S)))

/-- The first tile of a pass: nothing accumulated yet, the maximum is the tile's own. -/
def tileFirst (X : Fin 5000 → Fin 256 → ℝ) (Bt : Fin 5000 → BitVec 32) (S : Fin 5000 → ℝ) : Running :=
  (fun b d => ∑ r, (hit (Bt r) b.val * X r d) * Real.exp (S r - tileMax S),
   tileMax S,
   ∑ r, Real.exp (S r - tileMax S))

end Cert.Pool

end
-- ==== Proof.SoftmaxAlgebra.lean ====
/-
  The algebra behind a softmax computed in one streaming pass, on real numbers.

  * A running sum kept relative to a moving reference level `M n` — rescaled by `exp (M n - M (n+1))` when the level
    moves, restarted every `P` steps — is, at every step, the plain sum over the steps since the last restart of
    the terms taken relative to the CURRENT level: `exp (s - M n) · exp (M n - M (n+1)) = exp (s - M (n+1))`.
  * A ratio `(∑ a · exp (s - μ)) / (∑ exp (s - μ))` does not depend on the level `μ`, and equals the sum of `a` against
    the normalised weights `exp (s - μ') / ∑ exp (s - μ')` at any other level `μ'`.
  * Forty tiles of five thousand rows are the two hundred thousand rows.
  * The maximum of finitely many reals, folded from `-∞` in the extended reals, is a real.
-/
import Mathlib.Analysis.SpecialFunctions.Exp
import Mathlib.Data.EReal.Inv
import Mathlib.Algebra.BigOperators.Fin
import Mathlib.Algebra.BigOperators.Intervals
import Mathlib.Algebra.BigOperators.Field
import Mathlib.Order.MinMax

noncomputable section

namespace Cert.Pool

open scoped BigOperators

/-- THE STREAMING SUM IN CLOSED FORM.  `Acc` restarts at the steps divisible by `P` and otherwise rescales and adds. -/
theorem fold_closed {ι : Type*} [Fintype ι] (a s : ℕ → ι → ℝ) (M Acc : ℕ → ℝ) (P : ℕ) (hP : 0 < P)
    (hreset : ∀ n, n % P = 0 → Acc n = ∑ r, a n r * Real.exp (s n r - M n))
    (hstep : ∀ n, (n + 1) % P ≠ 0 →
      Acc (n + 1) = Acc n * Real.exp (M n - M (n + 1)) + ∑ r, a (n + 1) r * Real.exp (s (n + 1) r - M (n + 1))) :
    ∀ n, Acc n = ∑ p ∈ Finset.Icc (n - n % P) n, ∑ r, a p r * Real.exp (s p r - M n) := by
  intro n
  induction n with
  | zero =>
    rw [hreset 0 (Nat.zero_mod P)]
    simp
  | succ n ih =>
    by_cases hn : (n + 1) % P = 0
    · rw [hreset (n + 1) hn, hn]
      simp
    · have hlt : n % P < P := Nat.mod_lt n hP
      have hmod : (n + 1) % P = n % P + 1 := by
        have h1 : (n + 1) % P = (n % P + 1) % P := (Nat.mod_add_mod n P 1).symm
        rcases Nat.lt_or_ge (n % P + 1) P with h | h
        · rw [h1, Nat.mod_eq_of_lt h]
        · exfalso
          apply hn
          have h2 : n % P + 1 = P := by omega
          rw [h1, h2, Nat.mod_self]
      have hle : n % P ≤ n := Nat.mod_le n P
      have hlo : (n + 1) - (n + 1) % P = n - n % P := by omega
      have hIcc : Finset.Icc (n - n % P) (n + 1) = insert (n + 1) (Finset.Icc (n - n % P) n) := by
        ext x
        simp only [Finset.mem_Icc, Finset.mem_insert]
        omega
      have hnot : n + 1 ∉ Finset.Icc (n - n % P) n := by
        simp only [Finset.mem_Icc]
        omega
      rw [hstep n hn, ih, hlo, hIcc, Finset.sum_insert hnot, Finset.sum_mul, add_comm]
      congr 1
      apply Finset.sum_congr rfl
      intro p _
      rw [Finset.sum_mul]
      apply Finset.sum_congr rfl
      intro r _
      rw [mul_assoc, ← Real.exp_add]
      congr 2
      ring

/-- Moving a sum taken relative to one level to another level: one common factor. -/
theorem sum_exp_shift {ι : Type*} (t : Finset ι) (a s : ι → ℝ) (μ μ' : ℝ) :
    (∑ n ∈ t, a n * Real.exp (s n - μ)) * Real.exp (μ - μ') = ∑ n ∈ t, a n * Real.exp (s n - μ') := by
  rw [Finset.sum_mul]
  apply Finset.sum_congr rfl
  intro n _
  rw [mul_assoc, ← Real.exp_add]
  congr 2
  ring

/-- THE NORMALISED SUM DOES NOT DEPEND ON THE LEVEL. -/
theorem ratio_eq_weighted {ι : Type*} [Fintype ι] [Nonempty ι] (a s : ι → ℝ) (μ μ' : ℝ) :
    (∑ n, a n * Real.exp (s n - μ)) / (∑ n, Real.exp (s n - μ))
      = ∑ n, a n * (Real.exp (s n - μ') / ∑ k, Real.exp (s k - μ')) := by
  have hpos : ∀ ν : ℝ, 0 < ∑ n, Real.exp (s n - ν) := fun ν =>
    Finset.sum_pos (fun i _ => Real.exp_pos _) Finset.univ_nonempty
  have hN : (∑ n, a n * Real.exp (s n - μ)) * Real.exp (μ - μ') = ∑ n, a n * Real.exp (s n - μ') :=
    sum_exp_shift Finset.univ a s μ μ'
  have hD : (∑ n, Real.exp (s n - μ)) * Real.exp (μ - μ') = ∑ n, Real.exp (s n - μ') := by
    have h := sum_exp_shift Finset.univ (fun _ => (1 : ℝ)) s μ μ'
    simpa only [one_mul] using h
  have hR : ∑ n, a n * (Real.exp (s n - μ') / ∑ k, Real.exp (s k - μ'))
      = (∑ n, a n * Real.exp (s n - μ')) / ∑ k, Real.exp (s k - μ') := by
    rw [Finset.sum_div]
    apply Finset.sum_congr rfl
    intro n _
    rw [mul_div_assoc]
  rw [hR, div_eq_div_iff (hpos μ).ne' (hpos μ').ne', ← hN, ← hD]
  ring

/-- The sum of exponentials over a nonempty index set is positive. -/
theorem sum_exp_pos {ι : Type*} [Fintype ι] [Nonempty ι] (s : ι → ℝ) (μ : ℝ) : 0 < ∑ n, Real.exp (s n - μ) := by
  apply Finset.sum_pos
  · intro i _
    exact Real.exp_pos _
  · exact Finset.univ_nonempty

/-- Forty tiles of five thousand rows, in order, are the two hundred thousand rows. -/
theorem sum_tiles (f : ℕ → ℝ) :
    ∑ p ∈ Finset.range 40, ∑ r : Fin 5000, f (5000 * p + r.val) = ∑ n : Fin 200000, f n.val := by
  have h1 : ∑ p ∈ Finset.range 40, ∑ r : Fin 5000, f (5000 * p + r.val)
      = ∑ x : Fin 40 × Fin 5000, f (5000 * x.1.val + x.2.val) := by
    rw [Finset.sum_range (fun p => ∑ r : Fin 5000, f (5000 * p + r.val))]
    exact (Fintype.sum_prod_type' (fun (p : Fin 40) (r : Fin 5000) => f (5000 * p.val + r.val))).symm
  have h2 : ∑ x : Fin 40 × Fin 5000, f (5000 * x.1.val + x.2.val) = ∑ n : Fin (40 * 5000), f n.val := by
    apply Fintype.sum_equiv finProdFinEquiv
    intro x
    rw [finProdFinEquiv_apply_val, add_comm]
  rw [h1, h2]

/-- The fold of `max` from `-∞` over finitely many reals is their largest, a real. -/
theorem fold_max_coe {ι : Type*} (t : Finset ι) (h : t.Nonempty) (f : ι → ℝ) :
    t.fold max (⊥ : EReal) (fun i => (f i : EReal)) = ((t.sup' h f : ℝ) : EReal) := by
  induction h using Finset.Nonempty.cons_induction with
  | singleton a => simp
  | cons a t ha ht ih =>
    rw [Finset.fold_cons, ih, Finset.sup'_cons ht]
    exact (EReal.coe_strictMono.monotone.map_max).symm

end Cert.Pool

end
-- ==== Proof.TileValue.lean ====
/-
  One tile's update, read at the ideal instance on real data.

  When the tile's blocks hold real numbers — the rows `X`, the segment words `Bt`, the perceptron's weights — the
  body's score of row `r` is `Pool.score … (X r)`, the one-hot matrix it builds by comparing a row counter with the
  segment words is `Pool.hit`, its three matrix products are plain sums, and so one tile's update of the three running
  quantities is `Pool.tileNext` of the reals they held — `Pool.tileFirst` from the reset values (zeros, -∞, zero: the
  rescaling factor `exp (-∞ - M')` is `0` there).
-/
import proofs.«401380_j11355893530634_3_alg».proof.KernelIdeal
import proofs.«401380_j11355893530634_3_alg».proof.Proof.Gen.KernelIdeal
import proofs.«401380_j11355893530634_3_alg».proof.Proof.Gen.KernelIdeal.Skeleton
import proofs.«401380_j11355893530634_3_alg».proof.Proof.Tile
import proofs.«401380_j11355893530634_3_alg».proof.Proof.Spec
import proofs.«401380_j11355893530634_3_alg».proof.Proof.SoftmaxAlgebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Idealize.ShloMosaic Idealize.ShloMosaic.ValueIdx
open Cert.KernelIdeal Cert.KernelIdeal.Gen Cert.KernelIdeal.Tile Cert.Pool
open scoped BigOperators

/-- The tile's blocks hold these real numbers: rows, first-layer weights and bias, second-layer weights and bias. -/
structure Holds (x0 : Vec Ideal S1x5000x256 .f32) (x2 : Vec Ideal S256x128 .f32) (x3 : Vec Ideal S1x128 .f32)
    (x4 : Vec Ideal S128x1 .f32) (x5 : Vec Ideal S1x1 .f32)
    (X : Fin 5000 → Fin 256 → ℝ) (W1 : Fin 256 → Fin 128 → ℝ) (B1 : Fin 128 → ℝ) (W2 : Fin 128 → ℝ) (b2 : ℝ) : Prop where
  rows : ∀ r d, x0 (ix3 (0 : Fin 1) r d) = ((X r d : ℝ) : EReal)
  w1 : ∀ d h, x2 (ix2 d h) = ((W1 d h : ℝ) : EReal)
  b1 : ∀ h, x3 (ix2 (0 : Fin 1) h) = ((B1 h : ℝ) : EReal)
  w2 : ∀ h, x4 (ix2 h (0 : Fin 1)) = ((W2 h : ℝ) : EReal)
  b2 : x5 (ix2 (0 : Fin 1) (0 : Fin 1)) = ((b2 : ℝ) : EReal)

variable {x0 : Vec Ideal S1x5000x256 .f32} {x2 : Vec Ideal S256x128 .f32} {x3 : Vec Ideal S1x128 .f32}
  {x4 : Vec Ideal S128x1 .f32} {x5 : Vec Ideal S1x1 .f32}
  {X : Fin 5000 → Fin 256 → ℝ} {W1 : Fin 256 → Fin 128 → ℝ} {B1 : Fin 128 → ℝ} {W2 : Fin 128 → ℝ} {b2 : ℝ}

/-- The coercion of reals into the extended reals commutes with finite sums. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The coercion of reals into the extended reals commutes with the larger of two. -/
theorem coe_max (x y : ℝ) : ((max x y : ℝ) : EReal) = max (x : EReal) (y : EReal) :=
  EReal.coe_strictMono.monotone.map_max

/-- A one-entry array broadcast to a matrix reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A column broadcast across a matrix reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, 1, n] array viewed as [1, n] reads, at (u, r), the operand at (0, 0, 0, r). -/
theorem shapeCast_111n_1n_apply {α : Type} {n : ℕ} (x : (⟨4, ![1, 1, 1, n]⟩ : Shape).Idx → α)
    (h : (⟨4, ![1, 1, 1, n]⟩ : Shape).ShapeCasts ⟨2, ![1, n]⟩) (u : Fin 1) (r : Fin n) :
    shapeCast ⟨2, ![1, n]⟩ x h (ix2 u r) = x (ix4 (0 : Fin 1) (0 : Fin 1) (0 : Fin 1) r) :=
  shapeCast_apply x h _ _ (by
    have hu : u.val = 0 := by omega
    rw [Shape.rowMajor_val_four, Shape.rowMajor_val_two]
    show ((0 * 1 + 0) * 1 + 0) * n + r.val = u.val * n + r.val
    rw [hu])

/-- The rows block, with its leading unit axis dropped, reads the block at (0, r, d). -/
theorem pay10_apply (x0 : Vec Ideal S1x5000x256 .f32) (r : Fin 5000) (d : Fin 256) :
    k0_pay10 x0 (ix2 r d) = x0 (ix3 (0 : Fin 1) r d) := by
  unfold k0_pay10
  exact shapeCast_1ab_ab_apply x0 _ r d

theorem lhs_mmA_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_mmA_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_mmA_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_mmA_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- A matrix product into a zero accumulator, read at (p, q): the sum over the contracted axis. -/
theorem mmA_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ k : Fin 256, a (ix2 p k) * b (ix2 k q) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_mmA_0 _ _
    | ⟨1, _⟩ => exact (lhs_mmA_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_mmA_0 _ _).trans hk
    | ⟨1, _⟩ => exact rhs_mmA_1 _ _)
  rw [el, er]

theorem lhs_mmB_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_mmB_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_mmB_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_mmB_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A matrix product into a zero accumulator, read at (p, q): the sum over the contracted axis. -/
theorem mmB_apply (a : FVec Ideal S5000x128 .bf16) (b : FVec Ideal S128x1 .bf16) (p : Fin 5000) (q : Fin 1) :
    matmul dot_S5000x128_S128x1_S5000x1_1_0_0_1_n_n none a b (constant (F := Ideal) S5000x1 .f32 0x00000000#32) (ix2 p q)
      = ∑ k : Fin 128, a (ix2 p k) * b (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhs_mmB_0 _ _
    | ⟨1, _⟩ => exact (lhs_mmB_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhs_mmB_0 _ _).trans hk
    | ⟨1, _⟩ => exact rhs_mmB_1 _ _)
  rw [el, er]

theorem lhs_mmC_0 (i : S256x256.Idx) (q : dot_S256x5000_S5000x256_S256x256_1_0_0_1_n_n.contr.Idx) :
    (dot_S256x5000_S5000x256_S256x256_1_0_0_1_n_n.lhsIdx i q 0).val = (i 0).val := by
  unfold DotDims.lhsIdx
  rw [dif_neg (show ¬(0 : Fin S256x5000.rank) ∈ dot_S256x5000_S5000x256_S256x256_1_0_0_1_n_n.lhsBatch by decide), dif_pos (show (0 : Fin S256x5000.rank) ∈ dot_S256x5000_S5000x256_S256x256_1_0_0_1_n_n.lhsNonContracting by decide)]
  rfl
theorem lhs_mmC_1 (i : S256x256.Idx) (q : dot_S256x5000_S5000x256_S256x256_1_0_0_1_n_n.contr.Idx) :
    (dot_S256x5000_S5000x256_S256x256_1_0_0_1_n_n.lhsIdx i q 1).val = (q ⟨0, by decide⟩).val :=
  dot_S256x5000_S5000x256_S256x256_1_0_0_1_n_n.lhsIdx_val_of_single rfl i q
theorem rhs_mmC_0 (i : S256x256.Idx) (q : dot_S256x5000_S5000x256_S256x256_1_0_0_1_n_n.contr.Idx) :
    (dot_S256x5000_S5000x256_S256x256_1_0_0_1_n_n.rhsIdx i q 0).val = (q ⟨0, by decide⟩).val :=
  dot_S256x5000_S5000x256_S256x256_1_0_0_1_n_n.rhsIdx_val_of_single rfl i q
theorem rhs_mmC_1 (i : S256x256.Idx) (q : dot_S256x5000_S5000x256_S256x256_1_0_0_1_n_n.contr.Idx) :
    (dot_S256x5000_S5000x256_S256x256_1_0_0_1_n_n.rhsIdx i q 1).val = (i 1).val := by
  unfold DotDims.rhsIdx
  rw [dif_neg (show ¬(1 : Fin S5000x256.rank) ∈ dot_S256x5000_S5000x256_S256x256_1_0_0_1_n_n.rhsBatch by decide), dif_pos (show (1 : Fin S5000x256.rank) ∈ dot_S256x5000_S5000x256_S256x256_1_0_0_1_n_n.rhsNonContracting by decide)]
  rfl

/-- A matrix product into a zero accumulator, read at (p, q): the sum over the contracted axis. -/
theorem mmC_apply (a : FVec Ideal S256x5000 .bf16) (b : FVec Ideal S5000x256 .bf16) (p : Fin 256) (q : Fin 256) :
    matmul dot_S256x5000_S5000x256_S256x256_1_0_0_1_n_n none a b (constant (F := Ideal) S256x256 .f32 0x00000000#32) (ix2 p q)
      = ∑ k : Fin 5000, a (ix2 p k) * b (ix2 k q) := by
  simp only [matmul]
  rw [Ideal.matmul_constant_zero_apply, ← Equiv.sum_comp (contrEquiv1 dot_S256x5000_S5000x256_S256x256_1_0_0_1_n_n 5000 rfl rfl).symm]
  refine Finset.sum_congr rfl fun k _ => ?_
  have hk := contrEquiv1_symm_val dot_S256x5000_S5000x256_S256x256_1_0_0_1_n_n 5000 rfl rfl k
  have el : dot_S256x5000_S5000x256_S256x256_1_0_0_1_n_n.lhsIdx (ix2 p q) ((contrEquiv1 dot_S256x5000_S5000x256_S256x256_1_0_0_1_n_n 5000 rfl rfl).symm k) = ix2 p k := funext fun a => Fin.ext (by
    match a with
    | ⟨0, _⟩ => exact lhs_mmC_0 _ _
    | ⟨1, _⟩ => exact (lhs_mmC_1 _ _).trans hk)
  have er : dot_S256x5000_S5000x256_S256x256_1_0_0_1_n_n.rhsIdx (ix2 p q) ((contrEquiv1 dot_S256x5000_S5000x256_S256x256_1_0_0_1_n_n 5000 rfl rfl).symm k) = ix2 k q := funext fun a => Fin.ext (by
    match a with
    | ⟨0, _⟩ => exact (rhs_mmC_0 _ _).trans hk
    | ⟨1, _⟩ => exact rhs_mmC_1 _ _)
  rw [el, er]

/-- The body's score of row r is the two-layer perceptron's score of the reals the row holds. -/
theorem pay11_apply (hX : Holds x0 x2 x3 x4 x5 X W1 B1 W2 b2) (r : Fin 5000) :
    k0_pay11 x0 x2 x3 x4 x5 (ix2 r (0 : Fin 1)) = ((score W1 B1 W2 b2 (X r) : ℝ) : EReal) := by
  unfold k0_pay11
  simp only [addf_apply, shapeCast_self]
  rw [mmB_apply, broadcastTo_1b_ab_apply, hX.b2]
  unfold score
  rw [EReal.coe_add, coe_sum]
  congr 1
  refine Finset.sum_congr rfl fun k _ => ?_
  show Ideal.tanh ((matmul dot_S5000x256_S256x128_S5000x128_1_0_0_1_n_n none (k0_pay10 x0)
                (truncf FTy.bf16 x2 bitsLt_bf16_f32) (constant (F := Ideal) S5000x128 FTy.f32 0x00000000#32)) (ix2 r k)
        + (broadcastTo S5000x128 x3 broadcasts_S1x128_S5000x128) (ix2 r k))
      * x4 (ix2 k (0 : Fin 1)) = _
  rw [mmA_apply, broadcastTo_1b_ab_apply, hX.b1, hX.w2]
  have hs : ∀ d : Fin 256, k0_pay10 x0 (ix2 r d) * (truncf FTy.bf16 x2 bitsLt_bf16_f32) (ix2 d k)
      = ((X r d * W1 d k : ℝ) : EReal) := fun d => by
    rw [pay10_apply, hX.rows, truncf_apply, hX.w1, EReal.coe_mul]
  rw [Finset.sum_congr rfl fun d _ => hs d, ← coe_sum, ← EReal.coe_add, Ideal.tanh_coe, ← EReal.coe_mul]

/-- The word of minus infinity is the bottom of the extended reals. -/
theorem ofBits_neg_inf : Ideal.ofBits .f32 0xFF800000#32 = (⊥ : EReal) := by simp [Ideal.ofBits, Ideal.ieee]

/-- The largest score of the tile, folded from minus infinity over its rows. -/
theorem rowmax_apply (hX : Holds x0 x2 x3 x4 x5 X W1 B1 W2 b2) :
    multiReduction (F := Ideal) .maximumf [0] S1 (k0_pay11 x0 x2 x3 x4 x5) 0xFF800000#32 reduces_S5000x1_S1 (.inl rfl) rfl (ix1 (0 : Fin 1))
      = ((tileMax (fun r => score W1 B1 W2 b2 (X r)) : ℝ) : EReal) := by
  refine (Ideal.multiReduction_maximumf_single (k0_pay11 x0 x2 x3 x4 x5) _ reduces_S5000x1_S1 _ _ (ix1 (0 : Fin 1))).trans ?_
  have hf : (k0_pay11 x0 x2 x3 x4 x5 ∘ reduces_S5000x1_S1.lift (ix1 (0 : Fin 1)))
      = fun k : Fin 5000 => ((score W1 B1 W2 b2 (X k) : ℝ) : EReal) := by
    refine funext fun (k : Fin 5000) => ?_
    have hi : reduces_S5000x1_S1.lift (ix1 (0 : Fin 1)) k = ix2 k (0 : Fin 1) :=
      funext fun a => Fin.ext (by match a with | ⟨0, _⟩ => rfl | ⟨1, _⟩ => rfl)
    show k0_pay11 x0 x2 x3 x4 x5 (reduces_S5000x1_S1.lift (ix1 (0 : Fin 1)) k) = _
    rw [hi, pay11_apply hX]
  rw [hf]
  show (Finset.univ : Finset (Fin 5000)).fold max (Ideal.ofBits .f32 0xFF800000#32) _ = _
  rw [ofBits_neg_inf]
  exact fold_max_coe Finset.univ _ _

/-- The new running maximum: the larger of the old one and the tile's largest score. -/
theorem pay12_apply (hX : Holds x0 x2 x3 x4 x5 X W1 B1 W2 b2) (mx : Vec Ideal S1x1 .f32) :
    k0_pay12 x0 x2 x3 x4 x5 mx (ix2 (0 : Fin 1) (0 : Fin 1))
      = max (mx (ix2 (0 : Fin 1) (0 : Fin 1))) ((tileMax (fun r => score W1 B1 W2 b2 (X r)) : ℝ) : EReal) := by
  unfold k0_pay12
  simp only [maximumf_apply]
  rw [shapeCast_a_1a_apply, rowmax_apply hX]

/-- The rescaling factor: the exponential of the old maximum less the new one. -/
theorem pay13_apply (mx : Vec Ideal S1x1 .f32) :
    k0_pay13 x0 x2 x3 x4 x5 mx (ix2 (0 : Fin 1) (0 : Fin 1))
      = Ideal.exp (mx (ix2 (0 : Fin 1) (0 : Fin 1)) - k0_pay12 x0 x2 x3 x4 x5 mx (ix2 (0 : Fin 1) (0 : Fin 1))) := rfl

/-- Row r's weight: the exponential of its score less the new maximum. -/
theorem pay14_apply (hX : Holds x0 x2 x3 x4 x5 X W1 B1 W2 b2) (mx : Vec Ideal S1x1 .f32) (r : Fin 5000) :
    k0_pay14 x0 x2 x3 x4 x5 mx (ix2 r (0 : Fin 1))
      = Ideal.exp (((score W1 B1 W2 b2 (X r) : ℝ) : EReal) - k0_pay12 x0 x2 x3 x4 x5 mx (ix2 (0 : Fin 1) (0 : Fin 1))) := by
  unfold k0_pay14
  show Ideal.exp (k0_pay11 x0 x2 x3 x4 x5 (ix2 r (0 : Fin 1))
      - broadcastTo S5000x1 (k0_pay12 x0 x2 x3 x4 x5 mx) broadcasts_S1x1_S5000x1 (ix2 r (0 : Fin 1))) = _
  rw [pay11_apply hX, broadcastTo_1b_ab_apply]

/-- The tile's sum of weights. -/
theorem pay15_apply (mx : Vec Ideal S1x1 .f32) :
    k0_pay15 x0 x2 x3 x4 x5 mx (ix2 (0 : Fin 1) (0 : Fin 1))
      = ∑ r : Fin 5000, k0_pay14 x0 x2 x3 x4 x5 mx (ix2 r (0 : Fin 1)) := by
  unfold k0_pay15
  simp only []
  rw [shapeCast_a_1a_apply]
  refine (Ideal.multiReduction_add_single (k0_pay14 x0 x2 x3 x4 x5 mx) _ reduces_S5000x1_S1 _ _ (ix1 (0 : Fin 1))).trans ?_
  refine Finset.sum_congr rfl fun (k : Fin 5000) _ => ?_
  have hi : reduces_S5000x1_S1.lift (ix1 (0 : Fin 1)) k = ix2 k (0 : Fin 1) :=
    funext fun a => Fin.ext (by match a with | ⟨0, _⟩ => rfl | ⟨1, _⟩ => rfl)
  rw [hi]

/-- A word is the word of a small segment number exactly when, read signed, it is that number. -/
theorem word_eq_iff (w : BitVec 32) (b : ℕ) (hb : b < 256) : BitVec.ofNat 32 b = w ↔ w.toInt = (b : ℤ) := by
  constructor
  · intro h
    rw [← h, BitVec.toInt_eq_toNat_cond, BitVec.toNat_ofNat]
    have hm : b % 2 ^ 32 = b := Nat.mod_eq_of_lt (by omega)
    rw [hm]
    split <;> omega
  · intro h
    apply BitVec.eq_of_toNat_eq
    rw [BitVec.toNat_ofNat]
    rw [BitVec.toInt_eq_toNat_cond] at h
    have hw := w.isLt
    split at h <;> omega

/-- Comparing the word of segment b with a row's segment word, widening the bit and reading it as a number gives
    one on a hit and zero otherwise. -/
theorem onehot_word (w : BitVec 32) (b : Fin 256) :
    FloatOps.sitofp (F := Ideal) .f32 ((IntOp.cmpi .eq (BitVec.ofNat 32 b.val) w).setWidth 32) = ((hit w b.val : ℝ) : EReal) := by
  show (((((IntOp.cmpi .eq (BitVec.ofNat 32 b.val) w).setWidth 32).toInt : ℤ) : ℝ) : EReal) = _
  unfold hit
  by_cases h : BitVec.ofNat 32 b.val = w
  · have hc : IntOp.cmpi .eq (BitVec.ofNat 32 b.val) w = 1#1 := by
      rw [h]; simp [IntOp.cmpi]
    rw [hc, if_pos ((word_eq_iff w b.val b.isLt).mp h)]
    norm_num
  · have hc : IntOp.cmpi .eq (BitVec.ofNat 32 b.val) w = 0#1 := by
      have hb : (BitVec.ofNat 32 b.val == w) = false := beq_eq_false_iff_ne.mpr h
      show BitVec.ofBool (BitVec.ofNat 32 b.val == w) = 0#1
      rw [hb]; rfl
    rw [hc, if_neg (fun h1 => h ((word_eq_iff w b.val b.isLt).mpr h1))]
    norm_num

/-- An integer comparison of vectors is the comparison of their entries. -/
theorem cmpi_apply {s : Shape} {w : ℕ} (p : CmpIPredicate) (x y : IVec s w) (i : s.Idx) :
    cmpi p x y i = IntOp.cmpi p (x i) (y i) := rfl

/-- The new weighted sums: what was there, rescaled, plus each row of the tile, weighted, dealt to its segment. -/
theorem pay1_apply (v5 : FVec Ideal S5000x256 .bf16) (v27 : FVec Ideal S1x1 .f32) (v30 : FVec Ideal S5000x1 .f32)
    (v33 : Vec Ideal S1x1x1x5000 .i32) (v45 : Vec Ideal S256x256 .f32) (b d : Fin 256) :
    k0_pay1 v5 v27 v30 v33 v45 (ix2 b d)
      = v45 (ix2 b d) * v27 (ix2 (0 : Fin 1) (0 : Fin 1))
        + ∑ r : Fin 5000, ((hit (v33 (ix4 (0 : Fin 1) (0 : Fin 1) (0 : Fin 1) r)) b.val : ℝ) : EReal)
            * (v5 (ix2 r d) * v30 (ix2 r (0 : Fin 1))) := by
  unfold k0_pay1
  simp only [shapeCast_self, addf_apply]
  rw [mulf_apply, broadcastTo_11_ab_apply, mmC_apply]
  congr 1
  refine Finset.sum_congr rfl fun r _ => ?_
  rw [truncf_apply, sitofp_apply, extui_apply, cmpi_apply, iota_single_apply, broadcastTo_1b_ab_apply,
    shapeCast_111n_1n_apply, mulf_apply, broadcastTo_a1_ab_apply, truncf_apply]
  exact congrArg (fun t => t * (v5 (ix2 r d) * v30 (ix2 r (0 : Fin 1))))
    (onehot_word (v33 (ix4 (0 : Fin 1) (0 : Fin 1) (0 : Fin 1) r)) b)

/-- The new sum of weights: the old one, rescaled, plus the tile's. -/
theorem pay2_apply (v27 v32 : FVec Ideal S1x1 .f32) (v52 : Vec Ideal S1x1 .f32) :
    k0_pay2 v27 v32 v52 (ix2 (0 : Fin 1) (0 : Fin 1))
      = v52 (ix2 (0 : Fin 1) (0 : Fin 1)) * v27 (ix2 (0 : Fin 1) (0 : Fin 1)) + v32 (ix2 (0 : Fin 1) (0 : Fin 1)) := by
  unfold k0_pay2
  simp only [shapeCast_self]
  rfl

/-- A shape cast to the same shape changes nothing. -/
theorem pay3_eq (v25 : FVec Ideal S1x1 .f32) : k0_pay3 v25 = v25 := by
  unfold k0_pay3
  exact shapeCast_self v25 _

/-- The reset value of the running maximum is minus infinity. -/
theorem pay8_apply : (k0_pay8 (F := Ideal)) (ix2 (0 : Fin 1) (0 : Fin 1)) = (⊥ : EReal) := by
  unfold k0_pay8
  simp only [shapeCast_self]
  exact ofBits_neg_inf

/-- A TILE AFTER OTHERS.  If the scratch buffers hold the reals `st`, the tile's update leaves `Pool.tileNext` of them. -/
theorem step_real (hX : Holds x0 x2 x3 x4 x5 X W1 B1 W2 b2) (x1 : Vec Ideal S1x1x1x5000 .i32)
    (acc : Vec Ideal S256x256 .f32) (mx l : Vec Ideal S1x1 .f32) (st : Running)
    (hacc : ∀ b d, acc (ix2 b d) = ((st.1 b d : ℝ) : EReal))
    (hmx : mx (ix2 (0 : Fin 1) (0 : Fin 1)) = ((st.2.1 : ℝ) : EReal))
    (hl : l (ix2 (0 : Fin 1) (0 : Fin 1)) = ((st.2.2 : ℝ) : EReal)) :
    (∀ b d, stepAcc x0 x1 x2 x3 x4 x5 acc mx (ix2 b d)
        = (((tileNext X (fun r => x1 (ix4 (0 : Fin 1) (0 : Fin 1) (0 : Fin 1) r)) (fun r => score W1 B1 W2 b2 (X r)) st).1 b d : ℝ) : EReal))
    ∧ stepMax x0 x2 x3 x4 x5 mx (ix2 (0 : Fin 1) (0 : Fin 1))
        = (((tileNext X (fun r => x1 (ix4 (0 : Fin 1) (0 : Fin 1) (0 : Fin 1) r)) (fun r => score W1 B1 W2 b2 (X r)) st).2.1 : ℝ) : EReal)
    ∧ stepSum x0 x2 x3 x4 x5 mx l (ix2 (0 : Fin 1) (0 : Fin 1))
        = (((tileNext X (fun r => x1 (ix4 (0 : Fin 1) (0 : Fin 1) (0 : Fin 1) r)) (fun r => score W1 B1 W2 b2 (X r)) st).2.2 : ℝ) : EReal) := by
  have hM : k0_pay12 x0 x2 x3 x4 x5 mx (ix2 (0 : Fin 1) (0 : Fin 1))
      = ((max st.2.1 (tileMax (fun r => score W1 B1 W2 b2 (X r))) : ℝ) : EReal) := by
    rw [pay12_apply hX, hmx, coe_max]
  have h13 : k0_pay13 x0 x2 x3 x4 x5 mx (ix2 (0 : Fin 1) (0 : Fin 1))
      = ((Real.exp (st.2.1 - max st.2.1 (tileMax (fun r => score W1 B1 W2 b2 (X r)))) : ℝ) : EReal) := by
    rw [pay13_apply, hM, hmx, ← EReal.coe_sub, Ideal.exp_coe]
  have h14 : ∀ r : Fin 5000, k0_pay14 x0 x2 x3 x4 x5 mx (ix2 r (0 : Fin 1))
      = ((Real.exp (score W1 B1 W2 b2 (X r) - max st.2.1 (tileMax (fun r => score W1 B1 W2 b2 (X r)))) : ℝ) : EReal) := fun r => by
    rw [pay14_apply hX, hM, ← EReal.coe_sub, Ideal.exp_coe]
  refine ⟨fun b d => ?_, ?_, ?_⟩
  · unfold stepAcc
    rw [pay1_apply, hacc, h13]
    have hs : ∀ r : Fin 5000,
        ((hit (x1 (ix4 (0 : Fin 1) (0 : Fin 1) (0 : Fin 1) r)) b.val : ℝ) : EReal)
            * (k0_pay10 x0 (ix2 r d) * k0_pay14 x0 x2 x3 x4 x5 mx (ix2 r (0 : Fin 1)))
          = (((hit (x1 (ix4 (0 : Fin 1) (0 : Fin 1) (0 : Fin 1) r)) b.val * X r d)
              * Real.exp (score W1 B1 W2 b2 (X r) - max st.2.1 (tileMax (fun r => score W1 B1 W2 b2 (X r)))) : ℝ) : EReal) := fun r => by
      rw [pay10_apply, hX.rows, h14, ← EReal.coe_mul, ← EReal.coe_mul, mul_assoc]
    rw [Finset.sum_congr rfl fun r _ => hs r, ← coe_sum, ← EReal.coe_mul, ← EReal.coe_add]
    rfl
  · unfold stepMax
    rw [pay3_eq, hM]
    rfl
  · unfold stepSum
    rw [pay2_apply, hl, h13, pay15_apply, Finset.sum_congr rfl fun r _ => h14 r, ← coe_sum, ← EReal.coe_mul, ← EReal.coe_add]
    rfl

/-- THE FIRST TILE OF A PASS.  From the reset values the tile's update leaves `Pool.tileFirst`. -/
theorem first_real (hX : Holds x0 x2 x3 x4 x5 X W1 B1 W2 b2) (x1 : Vec Ideal S1x1x1x5000 .i32) :
    (∀ b d, stepAcc x0 x1 x2 x3 x4 x5 (k0_pay7 (F := Ideal)) (k0_pay8 (F := Ideal)) (ix2 b d)
        = (((tileFirst X (fun r => x1 (ix4 (0 : Fin 1) (0 : Fin 1) (0 : Fin 1) r)) (fun r => score W1 B1 W2 b2 (X r))).1 b d : ℝ) : EReal))
    ∧ stepMax x0 x2 x3 x4 x5 (k0_pay8 (F := Ideal)) (ix2 (0 : Fin 1) (0 : Fin 1))
        = (((tileFirst X (fun r => x1 (ix4 (0 : Fin 1) (0 : Fin 1) (0 : Fin 1) r)) (fun r => score W1 B1 W2 b2 (X r))).2.1 : ℝ) : EReal)
    ∧ stepSum x0 x2 x3 x4 x5 (k0_pay8 (F := Ideal)) (k0_pay9 (F := Ideal)) (ix2 (0 : Fin 1) (0 : Fin 1))
        = (((tileFirst X (fun r => x1 (ix4 (0 : Fin 1) (0 : Fin 1) (0 : Fin 1) r)) (fun r => score W1 B1 W2 b2 (X r))).2.2 : ℝ) : EReal) := by
  have hM : k0_pay12 x0 x2 x3 x4 x5 (k0_pay8 (F := Ideal)) (ix2 (0 : Fin 1) (0 : Fin 1))
      = ((tileMax (fun r => score W1 B1 W2 b2 (X r)) : ℝ) : EReal) := by
    rw [pay12_apply hX, pay8_apply, max_eq_right bot_le]
  have h13 : k0_pay13 x0 x2 x3 x4 x5 (k0_pay8 (F := Ideal)) (ix2 (0 : Fin 1) (0 : Fin 1)) = 0 := by
    rw [pay13_apply, pay8_apply, EReal.bot_sub, Ideal.exp_bot]
  have h14 : ∀ r : Fin 5000, k0_pay14 x0 x2 x3 x4 x5 (k0_pay8 (F := Ideal)) (ix2 r (0 : Fin 1))
      = ((Real.exp (score W1 B1 W2 b2 (X r) - tileMax (fun r => score W1 B1 W2 b2 (X r))) : ℝ) : EReal) := fun r => by
    rw [pay14_apply hX, hM, ← EReal.coe_sub, Ideal.exp_coe]
  refine ⟨fun b d => ?_, ?_, ?_⟩
  · unfold stepAcc
    rw [pay1_apply, h13, mul_zero, zero_add]
    have hs : ∀ r : Fin 5000,
        ((hit (x1 (ix4 (0 : Fin 1) (0 : Fin 1) (0 : Fin 1) r)) b.val : ℝ) : EReal)
            * (k0_pay10 x0 (ix2 r d) * k0_pay14 x0 x2 x3 x4 x5 (k0_pay8 (F := Ideal)) (ix2 r (0 : Fin 1)))
          = (((hit (x1 (ix4 (0 : Fin 1) (0 : Fin 1) (0 : Fin 1) r)) b.val * X r d)
              * Real.exp (score W1 B1 W2 b2 (X r) - tileMax (fun r => score W1 B1 W2 b2 (X r))) : ℝ) : EReal) := fun r => by
      rw [pay10_apply, hX.rows, h14, ← EReal.coe_mul, ← EReal.coe_mul, mul_assoc]
    rw [Finset.sum_congr rfl fun r _ => hs r, ← coe_sum]
    simp only [tileFirst]
  · unfold stepMax
    rw [pay3_eq, hM]
    simp only [tileFirst]
  · unfold stepSum
    rw [pay2_apply, h13, mul_zero, zero_add, pay15_apply, Finset.sum_congr rfl fun r _ => h14 r, ← coe_sum]
    simp only [tileFirst]

end Cert.KernelIdeal.TileValue

end
-- ==== Proof.Blocks.lean ====
/-
  A tile's staged blocks are entries of the program's argument arrays.

  The host views the node table as [2, 100000, 256] and the segment words as [2, 20, 1, 5000]; grid point `t` (pass
  `t / 20`, tile `t % 20`) stages rows `5000 t … 5000 t + 4999` of the table and the same rows' segment words, and
  the whole of each perceptron parameter (the two biases through the host's reshapes to [1, 128] and [1, 1]).
  Stated at any float instance.
-/
import proofs.«401380_j11355893530634_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-! ## Where each window sits on the grid

Point `t` of the 2 × 20 grid has coordinates `(t / 20, t % 20)`; the table's and the words' windows follow both
coordinates, the parameters' windows stay at the origin. -/

/-- The table's window: block `(t / 20, t % 20, 0)`. -/
theorem index_rows : ∀ t : Fin grid0.N, win0_0.index t (0 : Fin 3) = t.val / 20 ∧ win0_0.index t 1 = t.val % 20
    ∧ win0_0.index t 2 = 0 := by decide +kernel

/-- The words' window: block `(t / 20, t % 20, 0, 0)`. -/
theorem index_words : ∀ t : Fin grid0.N, win0_1.index t (0 : Fin 4) = t.val / 20 ∧ win0_1.index t 1 = t.val % 20
    ∧ win0_1.index t 2 = 0 ∧ win0_1.index t 3 = 0 := by decide +kernel

/-- The first layer's weights: the one block. -/
theorem index_w1 : ∀ t : Fin grid0.N, win0_2.index t (0 : Fin 2) = 0 ∧ win0_2.index t 1 = 0 := by decide +kernel

/-- The first layer's bias: the one block. -/
theorem index_b1 : ∀ t : Fin grid0.N, win0_3.index t (0 : Fin 2) = 0 ∧ win0_3.index t 1 = 0 := by decide +kernel

/-- The second layer's weights: the one block. -/
theorem index_w2 : ∀ t : Fin grid0.N, win0_4.index t (0 : Fin 2) = 0 ∧ win0_4.index t 1 = 0 := by decide +kernel

/-- The second layer's bias: the one block. -/
theorem index_b2 : ∀ t : Fin grid0.N, win0_5.index t (0 : Fin 2) = 0 ∧ win0_5.index t 1 = 0 := by decide +kernel

/-! ## The host's views of the arguments

Each staged view is the argument's elements in row-major order at the view's shape. -/

/-- The node table viewed as [2, 100000, 256]. -/
theorem table_view (c : Dev nD) : (V m c main_v2 : S2x100000x256.Idx → Elt F .f32)
    = shapeCast S2x100000x256 (m ((c : Thread nD τ).loc main_arg0)) shapeCasts_S200000x256_S2x100000x256 := by
  show StableHlo.after hostOps0 (fun b => m (c, b)) (Proc.devRef .tc main_v2) = _
  after_results
  rfl

/-- The segment words viewed as [2, 20, 1, 5000]. -/
theorem words_view (c : Dev nD) : (V m c main_v3 : S2x20x1x5000.Idx → Elt F .i32)
    = shapeCast S2x20x1x5000 (m ((c : Thread nD τ).loc main_arg1)) shapeCasts_S200000_S2x20x1x5000 := by
  show StableHlo.after hostOps0 (fun b => m (c, b)) (Proc.devRef .tc main_v3) = _
  after_results
  rfl

/-- The first bias viewed as [1, 128]. -/
theorem b1_view (c : Dev nD) : (V m c main_v0 : S1x128.Idx → Elt F .f32)
    = shapeCast S1x128 (m ((c : Thread nD τ).loc main_arg3)) shapeCasts_S128_S1x128 := by
  show StableHlo.after hostOps0 (fun b => m (c, b)) (Proc.devRef .tc main_v0) = _
  after_results
  rfl

/-- The second bias viewed as [1, 1]. -/
theorem b2_view (c : Dev nD) : (V m c main_v1 : S1x1.Idx → Elt F .f32)
    = shapeCast S1x1 (m ((c : Thread nD τ).loc main_arg5)) shapeCasts_S1_S1x1 := by
  show StableHlo.after hostOps0 (fun b => m (c, b)) (Proc.devRef .tc main_v1) = _
  after_results
  rfl

/-- Entry `(p, q, d)` of the [2, 100000, 256] view is entry `(100000 p + q, d)` of the table: both sit at row-major
    position `(100000 p + q) · 256 + d`. -/
theorem view_rows {α : Type} (x : S200000x256.Idx → α) (hc : S200000x256.ShapeCasts S2x100000x256)
    (p : Fin 2) (q : Fin 100000) (d : Fin 256) (n : Fin 200000) (hn : n.val = 100000 * p.val + q.val) :
    shapeCast S2x100000x256 x hc (ix3 p q d) = x (ix2 n d) :=
  shapeCast_apply x hc _ _ (by
    rw [Shape.rowMajor_val_two, Shape.rowMajor_val_three]
    show n.val * 256 + d.val = (p.val * 100000 + q.val) * 256 + d.val
    rw [hn, Nat.mul_comm 100000])

/-- Entry `(p, q, 0, r)` of the [2, 20, 1, 5000] view is word `5000 (20 p + q) + r`: the same row-major position. -/
theorem view_words {α : Type} (x : S200000.Idx → α) (hc : S200000.ShapeCasts S2x20x1x5000)
    (p : Fin 2) (q : Fin 20) (u : Fin 1) (r : Fin 5000) (n : Fin 200000)
    (hn : n.val = 5000 * (20 * p.val + q.val) + r.val) :
    shapeCast S2x20x1x5000 x hc (ix4 p q u r) = x (ix1 n) :=
  shapeCast_apply x hc _ _ (by
    have hu : u.val = 0 := by omega
    rw [Shape.rowMajor_val_one, Shape.rowMajor_val_four]
    show n.val = ((p.val * 20 + q.val) * 1 + u.val) * 5000 + r.val
    rw [hn, hu]
    omega)

/-! ## The blocks

A block's coordinate on an axis is the window's index there times the block's extent, plus the coordinate inside
the block. -/

/-- Row `r` of the tile staged at point `t` is row `5000 t + r` of the node table. -/
theorem rows_block (c : Dev nD) (t : Fin cfg0.N) (r : Fin 5000) (d : Fin 256) (h : 5000 * t.val + r.val < 200000) :
    (iblk m c 0 t : Vec F S1x5000x256 .f32) (ix3 (0 : Fin 1) r d)
      = m ((c : Thread nD τ).loc main_arg0) (ix2 (⟨5000 * t.val + r.val, h⟩ : Fin 200000) d) := by
  have hi := index_rows t
  have ht : t.val < 40 := lt_of_lt_of_eq t.isLt N_0
  have he : (((cfg0.win 0).blk t).view.emb (ix3 (0 : Fin 1) r d) : S2x100000x256.Idx)
      = ix3 (⟨t.val / 20, by omega⟩ : Fin 2) (⟨5000 * (t.val % 20) + r.val, by omega⟩ : Fin 100000) d := by
    funext a
    apply Fin.ext
    match a with
    | ⟨0, _⟩ => show win0_0.index t 0 * 1 + 1 * 0 = t.val / 20; rw [hi.1]; omega
    | ⟨1, _⟩ => show win0_0.index t 1 * 5000 + 1 * r.val = 5000 * (t.val % 20) + r.val; rw [hi.2.1]; omega
    | ⟨2, _⟩ => show win0_0.index t 2 * 256 + 1 * d.val = d.val; rw [hi.2.2]; omega
  unfold iblk
  rw [View.read_apply]
  show V m c main_v2 _ = _
  rw [table_view, he]
  exact view_rows _ _ _ _ _ _ (by
    show 5000 * t.val + r.val = 100000 * (t.val / 20) + (5000 * (t.val % 20) + r.val)
    omega)

/-- Segment word `r` of the tile staged at point `t` is word `5000 t + r` of the segment array. -/
theorem words_block (c : Dev nD) (t : Fin cfg0.N) (r : Fin 5000) (h : 5000 * t.val + r.val < 200000) :
    (iblk m c 1 t : Vec F S1x1x1x5000 .i32) (ix4 (0 : Fin 1) (0 : Fin 1) (0 : Fin 1) r)
      = m ((c : Thread nD τ).loc main_arg1) (ix1 (⟨5000 * t.val + r.val, h⟩ : Fin 200000)) := by
  have hi := index_words t
  have ht : t.val < 40 := lt_of_lt_of_eq t.isLt N_0
  have he : (((cfg0.win 1).blk t).view.emb (ix4 (0 : Fin 1) (0 : Fin 1) (0 : Fin 1) r) : S2x20x1x5000.Idx)
      = ix4 (⟨t.val / 20, by omega⟩ : Fin 2) (⟨t.val % 20, by omega⟩ : Fin 20) (0 : Fin 1) r := by
    funext a
    apply Fin.ext
    match a with
    | ⟨0, _⟩ => show win0_1.index t 0 * 1 + 1 * 0 = t.val / 20; rw [hi.1]; omega
    | ⟨1, _⟩ => show win0_1.index t 1 * 1 + 1 * 0 = t.val % 20; rw [hi.2.1]; omega
    | ⟨2, _⟩ => show win0_1.index t 2 * 1 + 1 * 0 = 0; rw [hi.2.2.1]
    | ⟨3, _⟩ => show win0_1.index t 3 * 5000 + 1 * r.val = r.val; rw [hi.2.2.2]; omega
  unfold iblk
  rw [View.read_apply]
  show V m c main_v3 _ = _
  rw [words_view, he]
  exact view_words _ _ _ _ _ _ _ (by
    show 5000 * t.val + r.val = 5000 * (20 * (t.val / 20) + t.val % 20) + r.val
    omega)

/-- The first layer's weights are staged whole. -/
theorem w1_block (c : Dev nD) (t : Fin cfg0.N) (d : Fin 256) (h : Fin 128) :
    (iblk m c 2 t : Vec F S256x128 .f32) (ix2 d h) = m ((c : Thread nD τ).loc main_arg2) (ix2 d h) := by
  have hi := index_w1 t
  unfold iblk
  rw [View.read_apply]
  show V m c main_arg2 _ = _
  rw [V_main_arg2]
  congr 1
  funext a
  apply Fin.ext
  match a with
  | ⟨0, _⟩ => show win0_2.index t 0 * 256 + 1 * d.val = d.val; rw [hi.1]; omega
  | ⟨1, _⟩ => show win0_2.index t 1 * 128 + 1 * h.val = h.val; rw [hi.2]; omega

/-- The first layer's bias, through the host's reshape to [1, 128]. -/
theorem b1_block (c : Dev nD) (t : Fin cfg0.N) (h : Fin 128) :
    (iblk m c 3 t : Vec F S1x128 .f32) (ix2 (0 : Fin 1) h) = m ((c : Thread nD τ).loc main_arg3) (ix1 h) := by
  have hi := index_b1 t
  have he : (((cfg0.win 3).blk t).view.emb (ix2 (0 : Fin 1) h) : S1x128.Idx) = ix2 (0 : Fin 1) h := by
    funext a
    apply Fin.ext
    match a with
    | ⟨0, _⟩ => show win0_3.index t 0 * 1 + 1 * 0 = 0; rw [hi.1]
    | ⟨1, _⟩ => show win0_3.index t 1 * 128 + 1 * h.val = h.val; rw [hi.2]; omega
  unfold iblk
  rw [View.read_apply]
  show V m c main_v0 _ = _
  rw [b1_view, he, shapeCast_a_1a_apply]

/-- The second layer's weights are staged whole. -/
theorem w2_block (c : Dev nD) (t : Fin cfg0.N) (h : Fin 128) :
    (iblk m c 4 t : Vec F S128x1 .f32) (ix2 h (0 : Fin 1)) = m ((c : Thread nD τ).loc main_arg4) (ix2 h (0 : Fin 1)) := by
  have hi := index_w2 t
  unfold iblk
  rw [View.read_apply]
  show V m c main_arg4 _ = _
  rw [V_main_arg4]
  congr 1
  funext a
  apply Fin.ext
  match a with
  | ⟨0, _⟩ => show win0_4.index t 0 * 128 + 1 * h.val = h.val; rw [hi.1]; omega
  | ⟨1, _⟩ => show win0_4.index t 1 * 1 + 1 * 0 = 0; rw [hi.2]

/-- The second layer's bias, through the host's reshape to [1, 1]. -/
theorem b2_block (c : Dev nD) (t : Fin cfg0.N) :
    (iblk m c 5 t : Vec F S1x1 .f32) (ix2 (0 : Fin 1) (0 : Fin 1)) = m ((c : Thread nD τ).loc main_arg5) (ix1 (0 : Fin 1)) := by
  have hi := index_b2 t
  have he : (((cfg0.win 5).blk t).view.emb (ix2 (0 : Fin 1) (0 : Fin 1)) : S1x1.Idx) = ix2 (0 : Fin 1) (0 : Fin 1) := by
    funext a
    apply Fin.ext
    match a with
    | ⟨0, _⟩ => show win0_5.index t 0 * 1 + 1 * 0 = 0; rw [hi.1]
    | ⟨1, _⟩ => show win0_5.index t 1 * 1 + 1 * 0 = 0; rw [hi.2]
  unfold iblk
  rw [View.read_apply]
  show V m c main_v1 _ = _
  rw [b2_view, he, shapeCast_a_1a_apply]

end Cert.KernelIdeal.Blocks

end
-- ==== Proof.RealTraj.lean ====
/-
  The streaming pass over the two hundred thousand rows, on real numbers, and what it adds up to.

  Grid point `p` (of forty) works on rows `5000 p … 5000 p + 4999`.  `realTraj n` is the running triple after point
  `n`: restarted at the first tile of each pass of twenty, otherwise one tile's update of the triple before.  In closed
  form the weighted sums and the sum of exponentials after point `n` are plain sums over the pass's tiles so far, every
  term taken relative to the CURRENT running level.  Merging the two passes at a common level and dividing gives the
  rows of each segment against the softmax weights over all rows — at whatever level those weights are written.
-/
import proofs.«401380_j11355893530634_3_alg».proof.Proof.Spec
import proofs.«401380_j11355893530634_3_alg».proof.Proof.SoftmaxAlgebra

noncomputable section

namespace Cert.Pool

open scoped BigOperators

variable (X : Fin 200000 → Fin 256 → ℝ) (Bw : Fin 200000 → BitVec 32) (S : Fin 200000 → ℝ)

/-- Row `r` of tile `p`, as a row of the table (taken modulo the table's length, so that it is defined for every `p`). -/
def rowOf (p : ℕ) (r : Fin 5000) : Fin 200000 := ⟨(5000 * p + r.val) % 200000, Nat.mod_lt _ (by decide)⟩

theorem rowOf_eq (p : ℕ) (r : Fin 5000) (h : 5000 * p + r.val < 200000) : rowOf p r = ⟨5000 * p + r.val, h⟩ :=
  Fin.ext (Nat.mod_eq_of_lt h)

/-- The running triple after grid point `n`. -/
def realTraj : ℕ → Running
  | 0 => tileFirst (fun r d => X (rowOf 0 r) d) (fun r => Bw (rowOf 0 r)) (fun r => S (rowOf 0 r))
  | n + 1 =>
    if (n + 1) % 20 = 0 then
      tileFirst (fun r d => X (rowOf (n + 1) r) d) (fun r => Bw (rowOf (n + 1) r)) (fun r => S (rowOf (n + 1) r))
    else
      tileNext (fun r d => X (rowOf (n + 1) r) d) (fun r => Bw (rowOf (n + 1) r)) (fun r => S (rowOf (n + 1) r))
        (realTraj n)

theorem realTraj_first (n : ℕ) (h : n % 20 = 0) :
    realTraj X Bw S n = tileFirst (fun r d => X (rowOf n r) d) (fun r => Bw (rowOf n r)) (fun r => S (rowOf n r)) := by
  cases n with
  | zero => rfl
  | succ n => exact if_pos h

theorem realTraj_next (n : ℕ) (h : (n + 1) % 20 ≠ 0) :
    realTraj X Bw S (n + 1)
      = tileNext (fun r d => X (rowOf (n + 1) r) d) (fun r => Bw (rowOf (n + 1) r)) (fun r => S (rowOf (n + 1) r))
          (realTraj X Bw S n) := if_neg h

/-- THE WEIGHTED SUMS IN CLOSED FORM: over the pass's tiles so far, relative to the current level. -/
theorem realTraj_acc (n : ℕ) (b d : Fin 256) :
    (realTraj X Bw S n).1 b d
      = ∑ p ∈ Finset.Icc (n - n % 20) n, ∑ r : Fin 5000,
          (hit (Bw (rowOf p r)) b.val * X (rowOf p r) d) * Real.exp (S (rowOf p r) - (realTraj X Bw S n).2.1) := by
  refine fold_closed (fun p r => hit (Bw (rowOf p r)) b.val * X (rowOf p r) d) (fun p r => S (rowOf p r))
    (fun k => (realTraj X Bw S k).2.1) (fun k => (realTraj X Bw S k).1 b d) 20 (by decide) ?_ ?_ n
  · intro k hk
    show (realTraj X Bw S k).1 b d = ∑ r, _ * Real.exp (_ - (realTraj X Bw S k).2.1)
    rw [realTraj_first X Bw S k hk]
    simp only [tileFirst]
  · intro k hk
    show (realTraj X Bw S (k + 1)).1 b d
      = (realTraj X Bw S k).1 b d * Real.exp ((realTraj X Bw S k).2.1 - (realTraj X Bw S (k + 1)).2.1)
        + ∑ r, _ * Real.exp (_ - (realTraj X Bw S (k + 1)).2.1)
    rw [realTraj_next X Bw S k hk]
    simp only [tileNext]

/-- THE SUM OF EXPONENTIALS IN CLOSED FORM. -/
theorem realTraj_sum (n : ℕ) :
    (realTraj X Bw S n).2.2
      = ∑ p ∈ Finset.Icc (n - n % 20) n, ∑ r : Fin 5000, Real.exp (S (rowOf p r) - (realTraj X Bw S n).2.1) := by
  have h := fold_closed (fun _ (_ : Fin 5000) => (1 : ℝ)) (fun p r => S (rowOf p r))
    (fun k => (realTraj X Bw S k).2.1) (fun k => (realTraj X Bw S k).2.2) 20 (by decide) ?_ ?_ n
  · simpa only [one_mul] using h
  · intro k hk
    show (realTraj X Bw S k).2.2 = ∑ r, 1 * Real.exp (_ - (realTraj X Bw S k).2.1)
    rw [realTraj_first X Bw S k hk]
    simp only [tileFirst, one_mul]
  · intro k hk
    show (realTraj X Bw S (k + 1)).2.2
      = (realTraj X Bw S k).2.2 * Real.exp ((realTraj X Bw S k).2.1 - (realTraj X Bw S (k + 1)).2.1)
        + ∑ r, 1 * Real.exp (_ - (realTraj X Bw S (k + 1)).2.1)
    rw [realTraj_next X Bw S k hk]
    simp only [tileNext, one_mul]

/-- Two passes of twenty tiles are the forty tiles. -/
theorem sum_two_passes (f : ℕ → ℝ) :
    ∑ p ∈ Finset.Icc 0 19, f p + ∑ p ∈ Finset.Icc 20 39, f p = ∑ p ∈ Finset.range 40, f p := by
  rw [← Finset.sum_union]
  · refine Finset.sum_congr ?_ fun _ _ => rfl
    ext p
    simp only [Finset.mem_union, Finset.mem_Icc, Finset.mem_range]
    omega
  · rw [Finset.disjoint_left]
    intro p hp hq
    simp only [Finset.mem_Icc] at hp hq
    omega

/-- A pass's closed form moved to another level `μ`, and summed over the rows the pass covers. -/
theorem pass_at_level (a : Fin 200000 → ℝ) (lo hi : ℕ) (M μ : ℝ) :
    (∑ p ∈ Finset.Icc lo hi, ∑ r : Fin 5000, a (rowOf p r) * Real.exp (S (rowOf p r) - M)) * Real.exp (M - μ)
      = ∑ p ∈ Finset.Icc lo hi, ∑ r : Fin 5000, a (rowOf p r) * Real.exp (S (rowOf p r) - μ) := by
  rw [Finset.sum_mul]
  refine Finset.sum_congr rfl fun p _ => ?_
  exact sum_exp_shift Finset.univ (fun r => a (rowOf p r)) (fun r => S (rowOf p r)) M μ

/-- The forty tiles' rows are all the rows. -/
theorem sum_all_tiles (g : Fin 200000 → ℝ) :
    ∑ p ∈ Finset.range 40, ∑ r : Fin 5000, g (rowOf p r) = ∑ n : Fin 200000, g n := by
  have h := sum_tiles (fun k => g ⟨k % 200000, Nat.mod_lt _ (by decide)⟩)
  rw [show (∑ n : Fin 200000, g n) = ∑ n : Fin 200000, (fun k => g ⟨k % 200000, Nat.mod_lt _ (by decide)⟩) n.val from
    Finset.sum_congr rfl fun n _ => congrArg g (Fin.ext (Nat.mod_eq_of_lt n.isLt).symm)]
  exact h

instance : Nonempty (Fin 200000) := ⟨⟨0, by decide⟩⟩

/-- The merged sum of exponentials is the sum over all rows at the common level. -/
theorem merged_den (M : ℝ) :
    (realTraj X Bw S 19).2.2 * Real.exp ((realTraj X Bw S 19).2.1 - M)
      + (realTraj X Bw S 39).2.2 * Real.exp ((realTraj X Bw S 39).2.1 - M)
      = ∑ n : Fin 200000, Real.exp (S n - M) := by
  have e19 := realTraj_sum X Bw S 19
  have e39 := realTraj_sum X Bw S 39
  rw [show 19 - 19 % 20 = 0 from rfl] at e19
  rw [show 39 - 39 % 20 = 20 from rfl] at e39
  have p19 := pass_at_level S (fun _ => (1 : ℝ)) 0 19 (realTraj X Bw S 19).2.1 M
  have p39 := pass_at_level S (fun _ => (1 : ℝ)) 20 39 (realTraj X Bw S 39).2.1 M
  simp only [one_mul] at p19 p39
  rw [e19, e39, p19, p39, sum_two_passes (fun p => ∑ r : Fin 5000, Real.exp (S (rowOf p r) - M)),
    sum_all_tiles (fun n => Real.exp (S n - M))]

/-- It is positive. -/
theorem merged_den_pos (M : ℝ) :
    0 < (realTraj X Bw S 19).2.2 * Real.exp ((realTraj X Bw S 19).2.1 - M)
      + (realTraj X Bw S 39).2.2 * Real.exp ((realTraj X Bw S 39).2.1 - M) := by
  rw [merged_den X Bw S M]
  exact sum_exp_pos S M

/-- THE TWO PASSES MERGED.  With `M = max M₁₉ M₃₉`, the merged weighted sums over the merged sum of exponentials are
    the rows of segment `b`, entry `d`, against the softmax weights over all rows written at any level `μ'`. -/
theorem merged (b d : Fin 256) (μ' : ℝ) :
    ((realTraj X Bw S 19).1 b d * Real.exp ((realTraj X Bw S 19).2.1 - max (realTraj X Bw S 19).2.1 (realTraj X Bw S 39).2.1)
        + (realTraj X Bw S 39).1 b d * Real.exp ((realTraj X Bw S 39).2.1 - max (realTraj X Bw S 19).2.1 (realTraj X Bw S 39).2.1))
      / ((realTraj X Bw S 19).2.2 * Real.exp ((realTraj X Bw S 19).2.1 - max (realTraj X Bw S 19).2.1 (realTraj X Bw S 39).2.1)
        + (realTraj X Bw S 39).2.2 * Real.exp ((realTraj X Bw S 39).2.1 - max (realTraj X Bw S 19).2.1 (realTraj X Bw S 39).2.1))
      = ∑ n : Fin 200000, (hit (Bw n) b.val * X n d)
          * (Real.exp (S n - μ') / ∑ k : Fin 200000, Real.exp (S k - μ')) := by
  set M := max (realTraj X Bw S 19).2.1 (realTraj X Bw S 39).2.1 with hM
  have hnum : (realTraj X Bw S 19).1 b d * Real.exp ((realTraj X Bw S 19).2.1 - M)
      + (realTraj X Bw S 39).1 b d * Real.exp ((realTraj X Bw S 39).2.1 - M)
      = ∑ n : Fin 200000, (hit (Bw n) b.val * X n d) * Real.exp (S n - M) := by
    rw [realTraj_acc X Bw S 19 b d, realTraj_acc X Bw S 39 b d,
      show 19 - 19 % 20 = 0 from rfl, show 39 - 39 % 20 = 20 from rfl,
      pass_at_level S (fun n => hit (Bw n) b.val * X n d) 0 19, pass_at_level S (fun n => hit (Bw n) b.val * X n d) 20 39,
      sum_two_passes (fun p => ∑ r : Fin 5000, (hit (Bw (rowOf p r)) b.val * X (rowOf p r) d) * Real.exp (S (rowOf p r) - M)),
      sum_all_tiles (fun n => (hit (Bw n) b.val * X n d) * Real.exp (S n - M))]
  rw [hnum, merged_den X Bw S M]
  exact ratio_eq_weighted (fun n => hit (Bw n) b.val * X n d) S M μ'

end Cert.Pool

end
-- ==== Proof.KernelValue.lean ====
/-
  The kernel program's result, at the ideal instance, on real data.

  When every float argument holds real numbers, each tile's staged blocks hold real numbers, so the scratch buffers
  after grid point `n` hold the real triple `Pool.realTraj n` (by induction along the grid: the first tile of a pass
  from the reset values, every other tile from what the point before left), the three result arrays hold the two
  passes' triples, and the host's merge of them is a quotient of real numbers: entry `(b, d)` of the result is the
  rows of segment `b`, entry `d`, against the softmax weights over all rows.
-/
import proofs.«401380_j11355893530634_3_alg».proof.Proof.KernelRun
import proofs.«401380_j11355893530634_3_alg».proof.Proof.TileValue
import proofs.«401380_j11355893530634_3_alg».proof.Proof.Blocks
import proofs.«401380_j11355893530634_3_alg».proof.Proof.RealTraj

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Tile Cert.KernelIdeal.Scratch Cert.KernelIdeal.Parts
open Cert.KernelIdeal.KernelRun Cert.KernelIdeal.TileValue Cert.Pool
open scoped BigOperators

variable (m : (ℓ : Loc nD τ sig) → Buf (Elt Ideal) ℓ) (c : Dev nD)
  (X : Fin 200000 → Fin 256 → ℝ) (W1 : Fin 256 → Fin 128 → ℝ) (B1 : Fin 128 → ℝ) (W2 : Fin 128 → ℝ) (b2 : ℝ)

/-- The float arguments hold these real numbers. -/
structure RealArgs : Prop where
  x : ∀ n d, m ((c : Thread nD τ).loc main_arg0) (ix2 n d) = ((X n d : ℝ) : EReal)
  w1 : ∀ d h, m ((c : Thread nD τ).loc main_arg2) (ix2 d h) = ((W1 d h : ℝ) : EReal)
  b1 : ∀ h, m ((c : Thread nD τ).loc main_arg3) (ix1 h) = ((B1 h : ℝ) : EReal)
  w2 : ∀ h, m ((c : Thread nD τ).loc main_arg4) (ix2 h (0 : Fin 1)) = ((W2 h : ℝ) : EReal)
  b2 : m ((c : Thread nD τ).loc main_arg5) (ix1 (0 : Fin 1)) = ((b2 : ℝ) : EReal)

/-- The segment words, and every row's score. -/
abbrev words : Fin 200000 → BitVec 32 := fun n => m ((c : Thread nD τ).loc main_arg1) (ix1 n)
abbrev scores : Fin 200000 → ℝ := fun n => score W1 B1 W2 b2 (X n)

variable {m c X W1 B1 W2 b2}

theorem row_lt (t : Fin cfg0.N) (r : Fin 5000) : 5000 * t.val + r.val < 200000 := by
  have ht : t.val < 40 := lt_of_lt_of_eq t.isLt (show cfg0.N = 40 from N_0)
  have hr := r.isLt
  omega

/-- The blocks staged at grid point `t` hold the rows `5000 t …` of the table and the perceptron's parameters. -/
theorem holds_at (hR : RealArgs m c X W1 B1 W2 b2) (t : Fin cfg0.N) :
    Holds (iblk m c 0 t) (iblk m c 2 t) (iblk m c 3 t) (iblk m c 4 t) (iblk m c 5 t)
      (fun r d => X (rowOf t.val r) d) W1 B1 W2 b2 where
  rows r d := by rw [Blocks.rows_block m c t r d (row_lt t r), hR.x, rowOf_eq t.val r (row_lt t r)]
  w1 d h := by rw [Blocks.w1_block m c t d h, hR.w1]
  b1 h := by rw [Blocks.b1_block m c t h, hR.b1]
  w2 h := by rw [Blocks.w2_block m c t h, hR.w2]
  b2 := by rw [Blocks.b2_block m c t, hR.b2]

/-- The segment words staged at grid point `t` are the words of rows `5000 t …`. -/
theorem words_at (t : Fin cfg0.N) :
    (fun r : Fin 5000 => (iblk m c 1 t : Vec Ideal S1x1x1x5000 .i32) (ix4 (0 : Fin 1) (0 : Fin 1) (0 : Fin 1) r))
      = fun r => words m c (rowOf t.val r) := by
  funext r
  rw [Blocks.words_block m c t r (row_lt t r), rowOf_eq t.val r (row_lt t r)]

/-- A triple of buffers holds a real triple. -/
def HoldsTriple (v : Vec Ideal S256x256 .f32 × Vec Ideal S1x1 .f32 × Vec Ideal S1x1 .f32) (st : Running) : Prop :=
  (∀ b d, v.1 (ix2 b d) = ((st.1 b d : ℝ) : EReal))
  ∧ v.2.1 (ix2 (0 : Fin 1) (0 : Fin 1)) = ((st.2.1 : ℝ) : EReal)
  ∧ v.2.2 (ix2 (0 : Fin 1) (0 : Fin 1)) = ((st.2.2 : ℝ) : EReal)

/-- The first tile of a pass leaves the real first-tile triple. -/
theorem first_at (hR : RealArgs m c X W1 B1 W2 b2) (t : Fin cfg0.N) :
    HoldsTriple (firstAt m c t)
      (tileFirst (fun r d => X (rowOf t.val r) d) (fun r => words m c (rowOf t.val r)) (fun r => scores X W1 B1 W2 b2 (rowOf t.val r))) := by
  have h := first_real (holds_at hR t) (iblk m c 1 t)
  rw [words_at t] at h
  exact h

/-- A later tile takes a real triple to the real next triple. -/
theorem next_at (hR : RealArgs m c X W1 B1 W2 b2) (t : Fin cfg0.N)
    (prev : Vec Ideal S256x256 .f32 × Vec Ideal S1x1 .f32 × Vec Ideal S1x1 .f32) (st : Running) (hp : HoldsTriple prev st) :
    HoldsTriple (nextAt m c t prev)
      (tileNext (fun r d => X (rowOf t.val r) d) (fun r => words m c (rowOf t.val r)) (fun r => scores X W1 B1 W2 b2 (rowOf t.val r)) st) := by
  have h := step_real (holds_at hR t) (iblk m c 1 t) prev.1 prev.2.1 prev.2.2 st hp.1 hp.2.1 hp.2.2
  rw [words_at t] at h
  exact h

/-- THE SCRATCH BUFFERS HOLD THE REAL RUNNING TRIPLE, at every grid point. -/
theorem traj_real (hR : RealArgs m c X W1 B1 W2 b2) :
    ∀ (n : ℕ) (h : n < cfg0.N), HoldsTriple (traj m c n h) (realTraj X (words m c) (scores X W1 B1 W2 b2) n)
  | 0, h => by
    rw [traj_first m c ⟨0, h⟩ rfl, realTraj_first _ _ _ 0 rfl]
    exact first_at hR ⟨0, h⟩
  | n + 1, h => by
    by_cases h0 : (n + 1) % 20 = 0
    · rw [traj_first m c ⟨n + 1, h⟩ h0, realTraj_first _ _ _ (n + 1) h0]
      exact first_at hR ⟨n + 1, h⟩
    · rw [traj_next m c n h h0, realTraj_next _ _ _ n h0]
      exact next_at hR ⟨n + 1, h⟩ _ _ (traj_real hR n (Nat.lt_of_succ_lt h))

/-- The coercion of the reals into the extended reals respects `max` (it is monotone). -/
theorem coe_max (a y : ℝ) : ((max a y : ℝ) : EReal) = max ((a : ℝ) : EReal) ((y : ℝ) : EReal) :=
  EReal.coe_strictMono.monotone.map_max

/-- The quotient of two real numbers, the divisor not zero, at the ideal instance. -/
theorem div_coe_coe (a y : ℝ) (hy : y ≠ 0) : Ideal.div ((a : ℝ) : EReal) ((y : ℝ) : EReal) = ((a / y : ℝ) : EReal) := by
  rw [Ideal.div_coe hy, ← EReal.coe_mul, mul_one_div]

theorem accParts_apply (p : Fin 2) (b d : Fin 256) :
    accParts m c (ix3 p b d) = (traj m c (lastPt p).val (lastPt p).isLt).1 (ix2 b d) := rfl

theorem maxParts_apply (p : Fin 2) :
    maxParts m c (ix3 p (0 : Fin 1) (0 : Fin 1)) = (traj m c (lastPt p).val (lastPt p).isLt).2.1 (ix2 (0 : Fin 1) (0 : Fin 1)) := rfl

theorem sumParts_apply (p : Fin 2) :
    sumParts m c (ix3 p (0 : Fin 1) (0 : Fin 1)) = (traj m c (lastPt p).val (lastPt p).isLt).2.2 (ix2 (0 : Fin 1) (0 : Fin 1)) := rfl

/-- THE KERNEL PROGRAM'S RESULT at entry `(b, d)`: the rows of segment `b`, entry `d`, against the softmax weights over
    all rows, written at any level `μ'`. -/
theorem result_real (hR : RealArgs m c X W1 B1 W2 b2) (b d : Fin 256) (μ' : ℝ) :
    epilogue (accParts m c) (maxParts m c) (sumParts m c) (ix2 b d)
      = ((∑ n : Fin 200000, (hit (words m c n) b.val * X n d)
            * (Real.exp (scores X W1 B1 W2 b2 n - μ') / ∑ k : Fin 200000, Real.exp (scores X W1 B1 W2 b2 k - μ')) : ℝ) : EReal) := by
  have h19 := traj_real hR (lastPt (0 : Fin 2)).val (lastPt (0 : Fin 2)).isLt
  have h39 := traj_real hR (lastPt (1 : Fin 2)).val (lastPt (1 : Fin 2)).isLt
  rw [epilogue_apply]
  rw [accParts_apply (0 : Fin 2) b d, accParts_apply (1 : Fin 2) b d, maxParts_apply (0 : Fin 2), maxParts_apply (1 : Fin 2),
    sumParts_apply (0 : Fin 2), sumParts_apply (1 : Fin 2), h19.1 b d, h39.1 b d, h19.2.1, h39.2.1, h19.2.2, h39.2.2]
  simp only [show (lastPt (0 : Fin 2)).val = 19 from rfl, show (lastPt (1 : Fin 2)).val = 39 from rfl,
    ← coe_max, ← EReal.coe_sub, Ideal.exp_coe, ← EReal.coe_mul, ← EReal.coe_add]
  rw [div_coe_coe _ _ (ne_of_gt (merged_den_pos X (words m c) (scores X W1 B1 W2 b2) _))]
  exact congrArg _ (merged X (words m c) (scores X W1 B1 W2 b2) b d μ')

end Cert.KernelIdeal.KernelValue

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.RefValue.lean ====
/-
  The reference program read at one output entry, on real data.

  The reference scores every row with the perceptron, takes the softmax of the scores over all rows (the scores less
  their maximum, exponentiated, divided by their sum) and adds each row, scaled by its weight, into the output row its
  segment word names; a word that names no output row contributes nowhere.  On real inputs the maximum it subtracts
  is a real `μ`, and entry `(b, d)` of the result is the sum over the rows of
  `hit (segment word) b · x_{n d} · (exp (sₙ - μ) / ∑ₖ exp (sₖ - μ))`.
-/
import proofs.«401380_j11355893530634_3_alg».proof.Proof.Gen.ReferenceIdeal.Read
import proofs.«401380_j11355893530634_3_alg».proof.Proof.LibRowGatherScatter
import proofs.«401380_j11355893530634_3_alg».proof.Proof.Spec
import proofs.«401380_j11355893530634_3_alg».proof.Proof.SoftmaxAlgebra
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.Pool
open scoped BigOperators

/-- The coercion of a finite sum of reals is the sum of the coercions. -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a s ha ih => rw [Finset.sum_insert ha, Finset.sum_insert ha, EReal.coe_add, ih]

section
variable (x0 : (⟨S200000x256, .f32⟩ : BufTy).Contents (Elt Ideal)) (x1 : (⟨S200000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (X : Fin 200000 → Fin 256 → ℝ) (W1 : Fin 256 → Fin 128 → ℝ) (B1 : Fin 128 → ℝ) (W2 : Fin 128 → ℝ) (b2 : ℝ)
    (hx0 : ∀ n d, x0 (ix2 n d) = ((X n d : ℝ) : EReal)) (hx2 : ∀ d h, x2 (ix2 d h) = ((W1 d h : ℝ) : EReal))
    (hx3 : ∀ h, x3 (ix1 h) = ((B1 h : ℝ) : EReal)) (hx4 : ∀ h, x4 (ix2 h (0 : Fin 1)) = ((W2 h : ℝ) : EReal))
    (hx5 : x5 (ix1 (0 : Fin 1)) = ((b2 : ℝ) : EReal))

include hx0 hx2 hx3 in
/-- The hidden layer at row `n`, unit `h`: the hyperbolic tangent of the row against column `h` plus the bias. -/
theorem hidden_apply (n : Fin 200000) (h : Fin 128) :
    Read.val_main_v4 (F := Ideal) x0 x2 x3 (ix2 n h)
      = ((Real.tanh ((∑ d, X n d * W1 d h) + B1 h) : ℝ) : EReal) := by
  rw [Read.val_main_v4_apply, Read.val_main_v3_apply, Read.val_main_v0_apply, Read.val_main_v2_apply,
    Read.val_main_v1_apply]
  have e1 : ∀ k : Fin 256, Read.lidx_main_v0 (ix2 n h) k = ix2 n k := fun k =>
    funext fun a => Fin.ext (by match a with | ⟨0, _⟩ => rfl | ⟨1, _⟩ => rfl)
  have e2 : ∀ k : Fin 256, Read.ridx_main_v0 (ix2 n h) k = ix2 k h := fun k =>
    funext fun a => Fin.ext (by match a with | ⟨0, _⟩ => rfl | ⟨1, _⟩ => rfl)
  have e3 : Read.idx_main_v1 (Read.idx_main_v2 (ix2 n h)) = ix1 h :=
    funext fun a => Fin.ext (by match a with | ⟨0, _⟩ => rfl)
  simp only [e1, e2, e3, hx0, hx2, hx3]
  rw [Ideal.hostUnary_tanh_def, Ideal.addf_def]
  simp only [← EReal.coe_mul]
  rw [← coe_sum, ← EReal.coe_add, Ideal.tanh_coe]

include hx0 hx2 hx3 hx4 hx5 in
/-- The score of row `n`: the hidden layer against the output weights, plus the output bias. -/
theorem score_apply (n : Fin 200000) :
    Read.val_main_v8 (F := Ideal) x0 x2 x3 x4 x5 (ix2 n (0 : Fin 1))
      = ((score W1 B1 W2 b2 (X n) : ℝ) : EReal) := by
  rw [Read.val_main_v8_apply, Read.val_main_v5_apply, Read.val_main_v7_apply, Read.val_main_v6_apply]
  have e1 : ∀ k : Fin 128, Read.lidx_main_v5 (ix2 n (0 : Fin 1)) k = ix2 n k := fun k =>
    funext fun a => Fin.ext (by match a with | ⟨0, _⟩ => rfl | ⟨1, _⟩ => rfl)
  have e2 : ∀ k : Fin 128, Read.ridx_main_v5 (ix2 n (0 : Fin 1)) k = ix2 k (0 : Fin 1) := fun k =>
    funext fun a => Fin.ext (by match a with | ⟨0, _⟩ => rfl | ⟨1, _⟩ => rfl)
  have e3 : Read.idx_main_v6 (Read.idx_main_v7 (ix2 n (0 : Fin 1))) = ix1 (0 : Fin 1) :=
    funext fun a => Fin.ext (by match a with | ⟨0, _⟩ => rfl)
  simp only [e1, e2, e3, hx4, hx5, hidden_apply x0 x2 x3 X W1 B1 hx0 hx2 hx3]
  rw [Ideal.addf_def]
  simp only [← EReal.coe_mul]
  rw [← coe_sum, ← EReal.coe_add]
  rfl

include hx0 hx2 hx3 hx4 hx5 in
/-- The score read at any index of the score column. -/
theorem score_apply' (i : S200000x1.Idx) :
    Read.val_main_v8 (F := Ideal) x0 x2 x3 x4 x5 i = ((score W1 B1 W2 b2 (X (i 0)) : ℝ) : EReal) := by
  have hi : i = ix2 (i 0) (0 : Fin 1) := by
    funext a
    match a with
    | ⟨0, _⟩ => rfl
    | ⟨1, _⟩ => exact Subsingleton.elim (α := Fin 1) _ _
  exact (congrArg (Read.val_main_v8 (F := Ideal) x0 x2 x3 x4 x5) hi).trans
    (score_apply x0 x2 x3 x4 x5 X W1 B1 W2 b2 hx0 hx2 hx3 hx4 hx5 (i 0))

/-- The word of the negative infinity denotes the least extended real. -/
theorem ofBits_neg_inf : Ideal.ofBits .f32 0xFF800000#32 = (⊥ : EReal) := by simp [Ideal.ofBits, Ideal.ieee]

include hx0 hx2 hx3 hx4 hx5 in
/-- The maximum the reference subtracts is a real: the largest of finitely many real scores. -/
theorem max_real :
    ∃ μ : ℝ, Read.val_main_v11 (F := Ideal) x0 x2 x3 x4 x5 (ix1 (0 : Fin 1)) = ((μ : ℝ) : EReal) := by
  have hR : S200000x1.Reduces [0] S1 := by decide
  have hfold : Read.val_main_v9 (F := Ideal) x0 x2 x3 x4 x5 (ix1 (0 : Fin 1))
      = (Finset.univ : Finset (Fin (S200000x1.size 0))).fold max (⊥ : EReal)
          (fun k => ((score W1 B1 W2 b2 (X ((hR.lift (ix1 (0 : Fin 1)) k) 0)) : ℝ) : EReal)) := by
    unfold Read.val_main_v9
    rw [Host.reduce_eq_fold_single FloatOps.maximumf _ _ reducesTo_S200000x1_S1_d0 hR h_S_]
    rw [Read.val_main_cst_apply, Ideal.ofBits_def, ofBits_neg_inf]
    exact Finset.fold_congr (fun k _ => score_apply' x0 x2 x3 x4 x5 X W1 B1 W2 b2 hx0 hx2 hx3 hx4 hx5 _)
  have hne : (Finset.univ : Finset (Fin (S200000x1.size 0))).Nonempty :=
    ⟨⟨0, by show 0 < 200000; omega⟩, Finset.mem_univ _⟩
  refine ⟨Finset.univ.sup' hne (fun k => score W1 B1 W2 b2 (X ((hR.lift (ix1 (0 : Fin 1)) k) 0))), ?_⟩
  rw [Read.val_main_v11_apply, Read.val_main_v10_apply, Read.val_main_cst_0_apply, hfold, fold_max_coe _ hne,
    Ideal.maximumf_def, Ideal.ofBits_def, ofBits_neg_inf]
  exact max_eq_right bot_le

include hx0 hx2 hx3 hx4 hx5 in
/-- The exponential of row `n`'s score less the maximum `μ`. -/
theorem exp_apply (μ : ℝ) (hμ : Read.val_main_v11 (F := Ideal) x0 x2 x3 x4 x5 (ix1 (0 : Fin 1)) = ((μ : ℝ) : EReal))
    (n : Fin 200000) :
    Read.val_main_v15 (F := Ideal) x0 x2 x3 x4 x5 (ix2 n (0 : Fin 1))
      = ((Real.exp (score W1 B1 W2 b2 (X n) - μ) : ℝ) : EReal) := by
  have e : Read.idx_main_v12 (Read.idx_main_v13 (ix2 n (0 : Fin 1))) = ix1 (0 : Fin 1) :=
    funext fun a => Fin.ext (by match a with | ⟨0, _⟩ => rfl)
  rw [Read.val_main_v15_apply, Read.val_main_v14_apply, Read.val_main_v13_apply, Read.val_main_v12_apply, e, hμ,
    score_apply x0 x2 x3 x4 x5 X W1 B1 W2 b2 hx0 hx2 hx3 hx4 hx5 n, Ideal.hostUnary_exp_def, Ideal.subf_def,
    ← EReal.coe_sub, Ideal.exp_coe]

include hx0 hx2 hx3 hx4 hx5 in
/-- The sum of the exponentials over all rows. -/
theorem denom_apply (μ : ℝ) (hμ : Read.val_main_v11 (F := Ideal) x0 x2 x3 x4 x5 (ix1 (0 : Fin 1)) = ((μ : ℝ) : EReal)) :
    Read.val_main_v16 (F := Ideal) x0 x2 x3 x4 x5 (ix1 (0 : Fin 1))
      = ((∑ k : Fin 200000, Real.exp (score W1 B1 W2 b2 (X k) - μ) : ℝ) : EReal) := by
  have e : ∀ k : Fin 200000, Read.idx_main_v16 (ix1 (0 : Fin 1)) k = ix2 k (0 : Fin 1) := fun k =>
    funext fun a => Fin.ext (by match a with | ⟨0, _⟩ => rfl | ⟨1, _⟩ => rfl)
  rw [Read.val_main_v16_apply, Read.val_main_cst_1_apply, Ideal.ofBits_def, Ideal.ofBits_zero_f32, zero_add]
  simp only [e, exp_apply x0 x2 x3 x4 x5 X W1 B1 W2 b2 hx0 hx2 hx3 hx4 hx5 μ hμ]
  rw [← coe_sum]

include hx0 hx2 hx3 hx4 hx5 in
/-- The softmax weight of row `n`: its exponential over the sum of all the exponentials. -/
theorem weight_apply (μ : ℝ) (hμ : Read.val_main_v11 (F := Ideal) x0 x2 x3 x4 x5 (ix1 (0 : Fin 1)) = ((μ : ℝ) : EReal))
    (n : Fin 200000) :
    Read.val_main_v19 (F := Ideal) x0 x2 x3 x4 x5 (ix2 n (0 : Fin 1))
      = ((Real.exp (score W1 B1 W2 b2 (X n) - μ) / ∑ k : Fin 200000, Real.exp (score W1 B1 W2 b2 (X k) - μ) : ℝ) : EReal) := by
  haveI : Nonempty (Fin 200000) := ⟨⟨0, by omega⟩⟩
  have e : Read.idx_main_v17 (Read.idx_main_v18 (ix2 n (0 : Fin 1))) = ix1 (0 : Fin 1) :=
    funext fun a => Fin.ext (by match a with | ⟨0, _⟩ => rfl)
  have hpos : (∑ k : Fin 200000, Real.exp (score W1 B1 W2 b2 (X k) - μ)) ≠ 0 :=
    (sum_exp_pos (fun k : Fin 200000 => score W1 B1 W2 b2 (X k)) μ).ne'
  rw [Read.val_main_v19_apply, Read.val_main_v18_apply, Read.val_main_v17_apply, e,
    exp_apply x0 x2 x3 x4 x5 X W1 B1 W2 b2 hx0 hx2 hx3 hx4 hx5 μ hμ n,
    denom_apply x0 x2 x3 x4 x5 X W1 B1 W2 b2 hx0 hx2 hx3 hx4 hx5 μ hμ, Ideal.hostDivf_def, Ideal.div_coe hpos,
    ← EReal.coe_mul, mul_one_div]

include hx0 hx2 hx3 hx4 hx5 in
/-- The update at `(n, d)`: entry `d` of row `n` scaled by the row's softmax weight. -/
theorem update_apply (μ : ℝ) (hμ : Read.val_main_v11 (F := Ideal) x0 x2 x3 x4 x5 (ix1 (0 : Fin 1)) = ((μ : ℝ) : EReal))
    (n : Fin 200000) (d : Fin 256) :
    Read.val_main_v21 (F := Ideal) x0 x2 x3 x4 x5 (ix2 n d)
      = ((X n d * (Real.exp (score W1 B1 W2 b2 (X n) - μ) / ∑ k : Fin 200000, Real.exp (score W1 B1 W2 b2 (X k) - μ)) : ℝ) : EReal) := by
  have e : Read.idx_main_v20 (ix2 n d) = ix2 n (0 : Fin 1) :=
    funext fun a => Fin.ext (by match a with | ⟨0, _⟩ => rfl | ⟨1, _⟩ => rfl)
  rw [Read.val_main_v21_apply, Read.val_main_v20_apply, e,
    weight_apply x0 x2 x3 x4 x5 X W1 B1 W2 b2 hx0 hx2 hx3 hx4 hx5 μ hμ n, hx0, Ideal.mulf_def, ← EReal.coe_mul]

end

/-- The scatter's dimension numbers are those of an accumulating scatter of rows. -/
theorem scatter_eq_rowScatterDims :
    scatter_S256x256_S200000x1_S200000x256_1_0_0_1
      = Cert.Gcn.rowScatterDims 256 200000 256 scatter_S256x256_S200000x1_S200000x256_1_0_0_1_wf := rfl

/-- The reference's scatter read at `(b, d)`: the operand's entry plus the updates' entries `d` over the rows whose
    segment word, read as a signed integer, is `b`. -/
theorem scatter_apply (xop : FVec Ideal S256x256 .f32) (idx : IVec S200000x1 32) (upd : FVec Ideal S200000x256 .f32)
    (b d : Fin 256) :
    Host.scatterAdd (F := Ideal) (φ := .f32) scatter_S256x256_S200000x1_S200000x256_1_0_0_1 xop idx upd (ix2 b d)
      = xop (ix2 b d) + ∑ n : Fin 200000, if (idx (ix2 n (0 : Fin 1))).toInt = (b.val : ℤ) then upd (ix2 n d) else 0 := by
  unfold Host.scatterAdd
  rw [Ideal.hostScatterAdd_def, scatter_eq_rowScatterDims, Cert.Gcn.scatterAdd_rows_apply, Finset.sum_filter]

/-- THE REFERENCE AT ENTRY `(b, d)`: the rows of segment `b`, entry `d`, against the softmax weights. -/
theorem result_apply
    (x0 : (⟨S200000x256, .f32⟩ : BufTy).Contents (Elt Ideal)) (x1 : (⟨S200000, .i32⟩ : BufTy).Contents (Elt Ideal))
    (x2 : (⟨S256x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal))
    (X : Fin 200000 → Fin 256 → ℝ) (W1 : Fin 256 → Fin 128 → ℝ) (B1 : Fin 128 → ℝ) (W2 : Fin 128 → ℝ) (b2 : ℝ)
    (hx0 : ∀ n d, x0 (ix2 n d) = ((X n d : ℝ) : EReal)) (hx2 : ∀ d h, x2 (ix2 d h) = ((W1 d h : ℝ) : EReal))
    (hx3 : ∀ h, x3 (ix1 h) = ((B1 h : ℝ) : EReal)) (hx4 : ∀ h, x4 (ix2 h (0 : Fin 1)) = ((W2 h : ℝ) : EReal))
    (hx5 : x5 (ix1 (0 : Fin 1)) = ((b2 : ℝ) : EReal)) (b d : Fin 256) :
    ∃ μ : ℝ, Read.val_main_v24 x0 x1 x2 x3 x4 x5 (ix2 b d)
      = ((∑ n : Fin 200000, (hit (x1 (ix1 n)) b.val * X n d)
            * (Real.exp (score W1 B1 W2 b2 (X n) - μ) / ∑ k : Fin 200000, Real.exp (score W1 B1 W2 b2 (X k) - μ)) : ℝ) : EReal) := by
  obtain ⟨μ, hμ⟩ := max_real x0 x2 x3 x4 x5 X W1 B1 W2 b2 hx0 hx2 hx3 hx4 hx5
  refine ⟨μ, ?_⟩
  have e : ∀ n : Fin 200000, Read.idx_main_v23 (ix2 n (0 : Fin 1)) = ix1 n := fun n =>
    funext fun a => Fin.ext (by match a with | ⟨0, _⟩ => rfl)
  unfold Read.val_main_v24
  rw [scatter_apply, Read.val_main_v22_apply, Read.val_main_cst_2_apply, Ideal.ofBits_def, Ideal.ofBits_zero_f32,
    zero_add, coe_sum]
  refine Finset.sum_congr rfl fun n _ => ?_
  rw [Read.val_main_v23_apply, e, update_apply x0 x2 x3 x4 x5 X W1 B1 W2 b2 hx0 hx2 hx3 hx4 hx5 μ hμ n d]
  unfold hit
  by_cases h : (x1 (ix1 n)).toInt = (b.val : ℤ)
  · rw [if_pos h, if_pos h, one_mul]
  · rw [if_neg h, if_neg h, zero_mul, zero_mul, EReal.coe_zero]

end Cert.ReferenceIdeal.RefValue

end
-- ==== Proof.Finite.lean ====
/-
  The precondition, opened: every entry of every float argument is a real number.

  The precondition is the conjunction, over the five float arguments, of "every entry's absolute value is below +∞".
  On the extended reals `|x| < +∞` leaves out exactly `+∞` and `-∞`.
-/
import proofs.«401380_j11355893530634_3_alg».proof.Defs
import proofs.«401380_j11355893530634_3_alg».proof.Proof.Gen.KernelIdeal
import proofs.«401380_j11355893530634_3_alg».proof.Proof.Gen.Pre_finite_inputs
import Idealize.ShloMosaic.Lib.ReduceAll
import Idealize.ShloMosaic.Lib.ValueIdx
import Idealize.ShloMosaic.PureOps.Ideal.Laws

noncomputable section

namespace Cert.KernelIdeal.Finite

open Idealize.ShloMosaic Idealize.ShloMosaic.TcCoe Idealize.SL.Sem Idealize.ShloMosaic.ValueIdx
open Cert.KernelIdeal

/-- The rank-0 shape has a single index. -/
instance : Subsingleton Cert.Pre_finite_inputs.S_.Idx := ⟨fun a b => funext fun d => d.elim0⟩

/-- On the extended reals, max x (-x) < ⊤ leaves out both infinities: what remains is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ came out true, x is a real. The word 0x7F800000 is +∞,
    the absolute value is max x (-x), and the ordered less-than is the strict order of the extended reals. -/
theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.cmpf_def, Ideal.absf_def, Ideal.ofBits_def, htop] at h
  apply real_of_abs_lt_top
  by_contra hn
  simp [Ideal.cmp, hn] at h

/-- One array: if the conjunction over all entries of |x i| < +∞ is true, every entry is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf (F := Ideal) x)
            (broadcastInDim s ![] hb (constant (F := Ideal) Cert.Pre_finite_inputs.S_ .f32 0x7F800000#32)))
          (constantI Cert.Pre_finite_inputs.S_ 1 1#1) hr hu ValueIdx.ix0 = 1#1) (i : s.Idx) :
    ∃ r : ℝ, x i = (r : EReal) :=
  real_of_cmp (x i) (Host.reduce_andi_all _ _ hr hu _ e i)

/-- Under the precondition every entry of the five float arguments is (the coercion of) a real number. -/
theorem real_of_pre (m : (ℓ : Loc nD τ sig) → Buf (Elt Ideal) ℓ) (hpre : Cert.Pre_KernelIdeal m) (c : Dev nD) :
    (∀ i, ∃ r : ℝ, m ((c.tc : Thread nD τ).loc main_arg0) i = ((r : ℝ) : EReal))
    ∧ (∀ i, ∃ r : ℝ, m ((c.tc : Thread nD τ).loc main_arg2) i = ((r : ℝ) : EReal))
    ∧ (∀ i, ∃ r : ℝ, m ((c.tc : Thread nD τ).loc main_arg3) i = ((r : ℝ) : EReal))
    ∧ (∀ i, ∃ r : ℝ, m ((c.tc : Thread nD τ).loc main_arg4) i = ((r : ℝ) : EReal))
    ∧ (∀ i, ∃ r : ℝ, m ((c.tc : Thread nD τ).loc main_arg5) i = ((r : ℝ) : EReal)) := by
  have h0 := congrFun (hpre c) ValueIdx.ix0
  dsimp only [Cert.Pre_finite_inputs.fn, Cert.Pre_finite_inputs.fn_part1, Idealize.ShloMosaic.andi] at h0
  simp only [IntOp.andi_eq_one] at h0
  obtain ⟨⟨⟨⟨e0, e2⟩, e3⟩, e4⟩, e5⟩ := h0
  exact ⟨real_of_all _ _ _ _ e0, real_of_all _ _ _ _ e2, real_of_all _ _ _ _ e3,
    real_of_all _ _ _ _ e4, real_of_all _ _ _ _ e5⟩

end Cert.KernelIdeal.Finite

end
-- ==== Proof.lean ====
/-
  Attention pooling over graph segments: a streaming two-pass kernel against the plain formula.

  The kernel walks the two hundred thousand rows in forty tiles, two passes of twenty, keeping per pass the weighted
  sums, the running maximum of the scores and the running sum of exponentials relative to it, and merges the two passes
  on the host; the reference takes the softmax of all scores at once and sums each segment's weighted rows.  On finite
  inputs, read over the extended reals, both end with the same array: entry `(b, d)` is the sum over the rows of
  segment `b` of `x_{n d}` times the softmax weight of row `n` — the streaming sums are those sums at a moving
  reference level (exp (s - M) · exp (M - M') = exp (s - M')), and the normalised sum does not depend on the level.
  The ideal pass rewrote nothing, so the idealization claim is trivial; the three frames are the generated ones.
-/
import proofs.«401380_j11355893530634_3_alg».proof.Defs
import proofs.«401380_j11355893530634_3_alg».proof.Proof.Gen.Kernel
import proofs.«401380_j11355893530634_3_alg».proof.Proof.Gen.Kernel.Skeleton
import proofs.«401380_j11355893530634_3_alg».proof.Proof.Gen.Kernel.Launch
import proofs.«401380_j11355893530634_3_alg».proof.Proof.Gen.Kernel.Points
import proofs.«401380_j11355893530634_3_alg».proof.Proof.Gen.Kernel.Frame
import proofs.«401380_j11355893530634_3_alg».proof.Proof.Gen.KernelIdeal
import proofs.«401380_j11355893530634_3_alg».proof.Proof.Gen.KernelIdeal.Skeleton
import proofs.«401380_j11355893530634_3_alg».proof.Proof.Gen.KernelIdeal.Launch
import proofs.«401380_j11355893530634_3_alg».proof.Proof.Gen.KernelIdeal.Points
import proofs.«401380_j11355893530634_3_alg».proof.Proof.Gen.KernelIdeal.Frame
import proofs.«401380_j11355893530634_3_alg».proof.Proof.Gen.ReferenceIdeal
import proofs.«401380_j11355893530634_3_alg».proof.Proof.Gen.ReferenceIdeal.Run
import proofs.«401380_j11355893530634_3_alg».proof.Proof.Gen.ReferenceIdeal.Read
import proofs.«401380_j11355893530634_3_alg».proof.Proof.Gen.Pre_finite_inputs
import proofs.«401380_j11355893530634_3_alg».proof.Proof.KernelValue
import proofs.«401380_j11355893530634_3_alg».proof.Proof.RefValue
import proofs.«401380_j11355893530634_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal.Parts Cert.KernelIdeal.KernelRun Cert.KernelIdeal.KernelValue

/-- The reference's result and the kernel program's merged result are one array: at every entry both are the same
    real sum (the reference's at its own level `μ`, the kernel's written at that level too). -/
theorem result_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v24 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = epilogue (accParts m c) (maxParts m c) (sumParts m c) := by
  obtain ⟨h0, h2, h3, h4, h5⟩ := Cert.KernelIdeal.Finite.real_of_pre m hpre c
  choose X0 hX0 using h0
  choose W1 hW1 using h2
  choose B1 hB1 using h3
  choose W2 hW2 using h4
  choose b2 hb2 using h5
  have hR : RealArgs m c (fun n d => X0 (ix2 n d)) (fun d h => W1 (ix2 d h)) (fun h => B1 (ix1 h))
      (fun h => W2 (ix2 h (0 : Fin 1))) (b2 (ix1 (0 : Fin 1))) :=
    ⟨fun n d => hX0 (ix2 n d), fun d h => hW1 (ix2 d h), fun h => hB1 (ix1 h), fun h => hW2 (ix2 h (0 : Fin 1)),
      hb2 (ix1 (0 : Fin 1))⟩
  funext i
  obtain ⟨b, d, rfl⟩ : ∃ (b : Fin 256) (d : Fin 256), i = ix2 b d := ⟨i 0, i 1, eq_ix2 i⟩
  obtain ⟨μ, hμ⟩ := Cert.ReferenceIdeal.RefValue.result_apply _ _ _ _ _ _ (fun n d => X0 (ix2 n d)) (fun d h => W1 (ix2 d h))
    (fun h => B1 (ix1 h)) (fun h => W2 (ix2 h (0 : Fin 1))) (b2 (ix1 (0 : Fin 1))) hR.x hR.w1 hR.b1 hR.w2 hR.b2 b d
  exact hμ.trans (result_real hR b d μ).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with the kernel program's merged result. -/
theorem algebraic : Cert.algebraic_KernelIdeal_ReferenceIdeal := by
  intro m ρ m' ρ' hpre hagree
  refine ⟨fun c => epilogue (accParts m c) (maxParts m c) (sumParts m c), run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v24_eq _ _ _ _ _ _).trans (result_eq m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
